-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16x256x256 : Shape := ⟨4, ![64, 16, 256, 256]⟩
abbrev S4x16 : Shape := ⟨2, ![4, 16]⟩
abbrev S4 : Shape := ⟨1, ![4]⟩
abbrev S16x4 : Shape := ⟨2, ![16, 4]⟩
abbrev S16 : Shape := ⟨1, ![16]⟩
abbrev S_ : Shape := ⟨0, ![]⟩

class Facts : Prop where
  bcast_S_S64x16x256x256 : S_.BroadcastsInDim S64x16x256x256 (![] : Fin 0 → Fin S64x16x256x256.rank)
  reducesTo_S64x16x256x256_S_d0_1_2_3 : S64x16x256x256.ReducesTo [0, 1, 2, 3] S_
  h_S_ : 0 < S_.numel
  bcast_S_S4x16 : S_.BroadcastsInDim S4x16 (![] : Fin 0 → Fin S4x16.rank)
  reducesTo_S4x16_S_d0_1 : S4x16.ReducesTo [0, 1] S_
  bcast_S_S4 : S_.BroadcastsInDim S4 (![] : Fin 0 → Fin S4.rank)
  reducesTo_S4_S_d0 : S4.ReducesTo [0] S_
  bcast_S_S16x4 : S_.BroadcastsInDim S16x4 (![] : Fin 0 → Fin S16x4.rank)
  reducesTo_S16x4_S_d0_1 : S16x4.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S16x4 1) : IVec S_ 1 :=
  let main_c_5 : IVec S_ 1 := constantI S_ 1 1#1
  let main_v17 : IVec S_ 1 := (fun x v => Host.reduce IntOp.andi x v reducesTo_S16x4_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S64x16x256x256 .f32) (main_arg1 : FVec F S4x16 .f32) (main_arg2 : FVec F S4 .f32) (main_arg3 : FVec F S16x4 .f32) (main_arg4 : FVec F S16 .f32) : IVec S_ 1 :=
  let main_v0 : FVec F S64x16x256x256 .f32 := Host.absf main_arg0
  let main_cst : FVec F S_ .f32 := constant S_ .f32 0x7F800000#32
  let main_v1 : FVec F S64x16x256x256 .f32 := broadcastInDim S64x16x256x256 ![] bcast_S_S64x16x256x256 main_cst
  let main_v2 : IVec S64x16x256x256 1 := cmpf .olt main_v0 main_v1
  let main_c : IVec S_ 1 := constantI S_ 1 1#1
  let main_v3 : IVec S_ 1 := (fun x v => Host.reduce IntOp.andi x v reducesTo_S64x16x256x256_S_d0_1_2_3 h_S_) main_v2 main_c
  let main_v4 : FVec F S4x16 .f32 := Host.absf main_arg1
  let main_cst_0 : FVec F S_ .f32 := constant S_ .f32 0x7F800000#32
  let main_v5 : FVec F S4x16 .f32 := broadcastInDim S4x16 ![] bcast_S_S4x16 main_cst_0
  let main_v6 : IVec S4x16 1 := cmpf .olt main_v4 main_v5
  let main_c_1 : IVec S_ 1 := constantI S_ 1 1#1
  let main_v7 : IVec S_ 1 := (fun x v => Host.reduce IntOp.andi x v reducesTo_S4x16_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S16x4 .f32 := Host.absf main_arg3
  let main_cst_4 : FVec F S_ .f32 := constant S_ .f32 0x7F800000#32
  let main_v15 : FVec F S16x4 .f32 := broadcastInDim S16x4 ![] bcast_S_S16x4 main_cst_4
  let main_v16 : IVec S16x4 1 := cmpf .olt main_v14 main_v15
  fn_part1 (F := F) main_arg4 main_v13 main_v16
-- ==== Kernel.lean ====
abbrev S64x16x256x256 : Shape := ⟨4, ![64, 16, 256, 256]⟩
abbrev S4x16 : Shape := ⟨2, ![4, 16]⟩
abbrev S4 : Shape := ⟨1, ![4]⟩
abbrev S16x4 : Shape := ⟨2, ![16, 4]⟩
abbrev S16 : Shape := ⟨1, ![16]⟩
abbrev S64x16 : Shape := ⟨2, ![64, 16]⟩
abbrev S8x16x256x128 : Shape := ⟨4, ![8, 16, 256, 128]⟩
abbrev S8x16 : Shape := ⟨2, ![8, 16]⟩
abbrev S8x16x256 : Shape := ⟨3, ![8, 16, 256]⟩
abbrev S64x4 : Shape := ⟨2, ![64, 4]⟩
abbrev S1x4 : Shape := ⟨2, ![1, 4]⟩
abbrev S_ : Shape := ⟨0, ![]⟩
abbrev S1x16 : Shape := ⟨2, ![1, 16]⟩
abbrev S64x16x1x1 : Shape := ⟨4, ![64, 16, 1, 1]⟩
abbrev S1x16x256x256 : Shape := ⟨4, ![1, 16, 256, 256]⟩
abbrev S1x16x1x1 : Shape := ⟨4, ![1, 16, 1, 1]⟩
abbrev S16x256x256 : Shape := ⟨3, ![16, 256, 256]⟩
abbrev S16x1x1 : Shape := ⟨3, ![16, 1, 1]⟩

abbrev nBuf : Space → Nat
  | .hbm => 31
  | .vmem => 11
  | .smem => 0
  | _ => 0

abbrev bufTy : (tb : Table) → Fin (tcTables nBuf tb) → BufTy
  | .hbm, ⟨0, _⟩ => ⟨S64x16x256x256, .f32⟩
  | .hbm, ⟨1, _⟩ => ⟨S4x16, .f32⟩
  | .hbm, ⟨2, _⟩ => ⟨S4, .f32⟩
  | .hbm, ⟨3, _⟩ => ⟨S16x4, .f32⟩
  | .hbm, ⟨4, _⟩ => ⟨S16, .f32⟩
  | .hbm, ⟨5, _⟩ => ⟨S64x16, .f32⟩
  | .hbm, ⟨6, _⟩ => ⟨S16x4, .f32⟩
  | .hbm, ⟨7, _⟩ => ⟨S64x4, .f32⟩
  | .hbm, ⟨8, _⟩ => ⟨S1x4, .f32⟩
  | .hbm, ⟨9, _⟩ => ⟨S64x4, .f32⟩
  | .hbm, ⟨10, _⟩ => ⟨S64x4, .f32⟩
  | .hbm, ⟨11, _⟩ => ⟨S_, .f32⟩
  | .hbm, ⟨12, _⟩ => ⟨S64x4, .f32⟩
  | .hbm, ⟨13, _⟩ => ⟨S64x4, .f32⟩
  | .hbm, ⟨14, _⟩ => ⟨S4x16, .f32⟩
  | .hbm, ⟨15, _⟩ => ⟨S64x16, .f32⟩
  | .hbm, ⟨16, _⟩ => ⟨S1x16, .f32⟩
  | .hbm, ⟨17, _⟩ => ⟨S64x16, .f32⟩
  | .hbm, ⟨18, _⟩ => ⟨S64x16, .f32⟩
  | .hbm, ⟨19, _⟩ => ⟨S64x16, .f32⟩
  | .hbm, ⟨20, _⟩ => ⟨S64x16, .f32⟩
  | .hbm, ⟨21, _⟩ => ⟨S_, .f32⟩
  | .hbm, ⟨22, _⟩ => ⟨S64x16, .f32⟩
  | .hbm, ⟨23, _⟩ => ⟨S64x16, .f32⟩
  | .hbm, ⟨24, _⟩ => ⟨S_, .f32⟩
  | .hbm, ⟨25, _⟩ => ⟨S64x16, .f32⟩
  | .hbm, ⟨26, _⟩ => ⟨S64x16, .f32⟩
  | .hbm, ⟨27, _⟩ => ⟨S64x16, .i32⟩
  | .hbm, ⟨28, _⟩ => ⟨S64x16, .f32⟩
  | .hbm, ⟨29, _⟩ => ⟨S64x16x1x1, .f32⟩
  | .hbm, ⟨30, _⟩ => ⟨S64x16x256x256, .f32⟩
  | .local _ .vmem, ⟨0, _⟩ => ⟨S8x16x256x128, .f32⟩
  | .local _ .vmem, ⟨1, _⟩ => ⟨S8x16x256x128, .f32⟩
  | .local _ .vmem, ⟨2, _⟩ => ⟨S8x16, .f32⟩
  | .local _ .vmem, ⟨3, _⟩ => ⟨S8x16, .f32⟩
  | .local _ .vmem, ⟨4, _⟩ => ⟨S8x16, .f32⟩
  | .local _ .vmem, ⟨5, _⟩ => ⟨S1x16x256x256, .f32⟩
  | .local _ .vmem, ⟨6, _⟩ => ⟨S1x16x256x256, .f32⟩
  | .local _ .vmem, ⟨7, _⟩ => ⟨S1x16x1x1, .f32⟩
  | .local _ .vmem, ⟨8, _⟩ => ⟨S1x16x1x1, .f32⟩
  | .local _ .vmem, ⟨9, _⟩ => ⟨S1x16x256x256, .f32⟩
  | .local _ .vmem, ⟨10, _⟩ => ⟨S1x16x256x256, .f32⟩
  | _, _ => ⟨S64x16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_9 : BitVec 32 := 0#32
  let v13 : BitVec 1 := Scalar.cmpi .ne v12 c0_i32_9
  v13

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x16x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x16x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x16x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S8x16_S8x16_0_0 : ∀ a, (![0, 0] : Fin 2 → Nat) a + S8x16.size a ≤ S8x16.size a
  h_S8x16 : 0 < S8x16.numel
  shapeCasts_S8x16_S8x16 : S8x16.ShapeCasts S8x16
  inb_S8x16x256x128_S8x16x256x128_0_0_0_0 : ∀ a, (![0, 0, 0, 0] : Fin 4 → Nat) a + S8x16x256x128.size a ≤ S8x16x256x128.size a
  h_S8x16x256x128 : 0 < S8x16x256x128.numel
  reduces_S8x16x256x128_S8x16x256 : S8x16x256x128.Reduces [3] S8x16x256
  reduces_S8x16x256_S8x16 : S8x16x256.Reduces [2] S8x16
  transposes_S4x16_S16x4_1_0 : S4x16.Transposes [1, 0] S16x4
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  bcast_S_S64x4 : S_.BroadcastsInDim S64x4 (![] : Fin 0 → Fin S64x4.rank)
  transposes_S16x4_S4x16_1_0 : S16x4.Transposes [1, 0] S4x16
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  shapeCasts_S64x16_S64x16x1x1 : S64x16.ShapeCasts S64x16x1x1
  inb_S1x16x256x256_S1x16x256x256_0_0_0_0 : ∀ a, (![0, 0, 0, 0] : Fin 4 → Nat) a + S1x16x256x256.size a ≤ S1x16x256x256.size a
  h_S1x16x256x256 : 0 < S1x16x256x256.numel
  shapeCasts_S1x16x256x256_S16x256x256 : S1x16x256x256.ShapeCasts S16x256x256
  inb_S1x16x1x1_S1x16x1x1_0_0_0_0 : ∀ a, (![0, 0, 0, 0] : Fin 4 → Nat) a + S1x16x1x1.size a ≤ S1x16x1x1.size a
  h_S1x16x1x1 : 0 < S1x16x1x1.numel
  shapeCasts_S1x16x1x1_S16x1x1 : S1x16x1x1.ShapeCasts S16x1x1
  broadcasts_S16x1x1_S16x256x256 : S16x1x1.Broadcasts S16x256x256
  shapeCasts_S16x256x256_S1x16x256x256 : S16x256x256.ShapeCasts S1x16x256x256
  dot_S64x16_S16x4_S64x4_1_0_0_1_n_n_wf : DotDims.WF S64x16 S16x4 S64x4 [1] [0] [0] [1] [] []
  dot_S64x4_S4x16_S64x16_1_0_0_1_n_n_wf : DotDims.WF S64x4 S4x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x256x128.size a ≤ S64x16x256x256.size a
  hwx0_0 : ∀ i : grid0.Coords, EltTy.bits .f32 = 32 ∨ (Rect.block (s := S64x16x256x256) S8x16x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16.size a ≤ S64x16.size a
  hwx0_1 : ∀ i : grid0.Coords, EltTy.bits .f32 = 32 ∨ (Rect.block (s := S64x16) S8x16.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x256x256.size a ≤ S64x16x256x256.size a
  hwx1_0 : ∀ i : grid1.Coords, EltTy.bits .f32 = 32 ∨ (Rect.block (s := S64x16x256x256) S1x16x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x1x1.size a ≤ S64x16x1x1.size a
  hwx1_1 : ∀ i : grid1.Coords, EltTy.bits .f32 = 32 ∨ (Rect.block (s := S64x16x1x1) S1x16x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x256x256.size a ≤ S64x16x256x256.size a
  hwx1_2 : ∀ i : grid1.Coords, EltTy.bits .f32 = 32 ∨ (Rect.block (s := S64x16x256x256) S1x16x256x256.size (cc1_transform_2 i) (hinb1_2 i)).WholeWords (EltTy.packing .f32)

variable [Facts₀]

def dot_S64x16_S16x4_S64x4_1_0_0_1_n_n : DotDims S64x16 S16x4 S64x4 where
  lhsContracting := [1]
  rhsContracting := [0]
  lhsNonContracting := [0]
  rhsNonContracting := [1]
  lhsBatch := []
  rhsBatch := []
  wf := dot_S64x16_S16x4_S64x4_1_0_0_1_n_n_wf
def dot_S64x4_S4x16_S64x16_1_0_0_1_n_n : DotDims S64x4 S4x16 S64x16 where
  lhsContracting := [1]
  rhsContracting := [0]
  lhsNonContracting := [0]
  rhsNonContracting := [1]
  lhsBatch := []
  rhsBatch := []
  wf := dot_S64x4_S4x16_S64x16_1_0_0_1_n_n_wf

abbrev win0_0 : Pipeline.Window sig grid0 :=
  Pipeline.Window.ofSpec (Memref.whole main_arg0) S8x16x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S1x16x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x16x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x16x256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x16x256x256 : Shape := ⟨4, ![64, 16, 256, 256]⟩
abbrev S4x16 : Shape := ⟨2, ![4, 16]⟩
abbrev S4 : Shape := ⟨1, ![4]⟩
abbrev S16x4 : Shape := ⟨2, ![16, 4]⟩
abbrev S16 : Shape := ⟨1, ![16]⟩
abbrev S_ : Shape := ⟨0, ![]⟩
abbrev S64x16 : Shape := ⟨2, ![64, 16]⟩
abbrev S64x4 : Shape := ⟨2, ![64, 4]⟩
abbrev S1x4 : Shape := ⟨2, ![1, 4]⟩
abbrev S1x16 : Shape := ⟨2, ![1, 16]⟩
abbrev S64x16x1x1 : Shape := ⟨4, ![64, 16, 1, 1]⟩

abbrev nBuf : Space → Nat
  | .hbm => 34
  | .vmem => 0
  | .smem => 0
  | _ => 0

abbrev bufTy : (tb : Table) → Fin (tcTables nBuf tb) → BufTy
  | .hbm, ⟨0, _⟩ => ⟨S64x16x256x256, .f32⟩
  | .hbm, ⟨1, _⟩ => ⟨S4x16, .f32⟩
  | .hbm, ⟨2, _⟩ => ⟨S4, .f32⟩
  | .hbm, ⟨3, _⟩ => ⟨S16x4, .f32⟩
  | .hbm, ⟨4, _⟩ => ⟨S16, .f32⟩
  | .hbm, ⟨5, _⟩ => ⟨S_, .f32⟩
  | .hbm, ⟨6, _⟩ => ⟨S64x16, .f32⟩
  | .hbm, ⟨7, _⟩ => ⟨S_, .f32⟩
  | .hbm, ⟨8, _⟩ => ⟨S64x16, .f32⟩
  | .hbm, ⟨9, _⟩ => ⟨S64x16, .f32⟩
  | .hbm, ⟨10, _⟩ => ⟨S64x4, .f32⟩
  | .hbm, ⟨11, _⟩ => ⟨S1x4, .f32⟩
  | .hbm, ⟨12, _⟩ => ⟨S64x4, .f32⟩
  | .hbm, ⟨13, _⟩ => ⟨S64x4, .f32⟩
  | .hbm, ⟨14, _⟩ => ⟨S_, .f32⟩
  | .hbm, ⟨15, _⟩ => ⟨S64x4, .f32⟩
  | .hbm, ⟨16, _⟩ => ⟨S64x4, .f32⟩
  | .hbm, ⟨17, _⟩ => ⟨S64x16, .f32⟩
  | .hbm, ⟨18, _⟩ => ⟨S1x16, .f32⟩
  | .hbm, ⟨19, _⟩ => ⟨S64x16, .f32⟩
  | .hbm, ⟨20, _⟩ => ⟨S64x16, .f32⟩
  | .hbm, ⟨21, _⟩ => ⟨S64x16, .f32⟩
  | .hbm, ⟨22, _⟩ => ⟨S64x16, .f32⟩
  | .hbm, ⟨23, _⟩ => ⟨S_, .f32⟩
  | .hbm, ⟨24, _⟩ => ⟨S64x16, .f32⟩
  | .hbm, ⟨25, _⟩ => ⟨S64x16, .f32⟩
  | .hbm, ⟨26, _⟩ => ⟨S_, .f32⟩
  | .hbm, ⟨27, _⟩ => ⟨S64x16, .f32⟩
  | .hbm, ⟨28, _⟩ => ⟨S64x16, .f32⟩
  | .hbm, ⟨29, _⟩ => ⟨S64x16, .i32⟩
  | .hbm, ⟨30, _⟩ => ⟨S64x16, .f32⟩
  | .hbm, ⟨31, _⟩ => ⟨S64x16x1x1, .f32⟩
  | .hbm, ⟨32, _⟩ => ⟨S64x16x256x256, .f32⟩
  | .hbm, ⟨33, _⟩ => ⟨S64x16x256x256, .f32⟩
  | _, _ => ⟨S64x16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  reducesTo_S64x16x256x256_S64x16_d2_3 : S64x16x256x256.ReducesTo [2, 3] S64x16
  h_S_ : 0 < S_.numel
  bcast_S_S64x16 : S_.BroadcastsInDim S64x16 (![] : Fin 0 → Fin S64x16.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  bcast_S_S64x4 : S_.BroadcastsInDim S64x4 (![] : Fin 0 → Fin S64x4.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S64x16_S64x16x1x1_0_1 : S64x16.BroadcastsInDim S64x16x1x1 (![0, 1] : Fin 2 → Fin S64x16x1x1.rank)
  bcast_S64x16x1x1_S64x16x256x256_0_1_2_3 : S64x16x1x1.BroadcastsInDim S64x16x256x256 (![0, 1, 2, 3] : Fin 4 → Fin S64x16x256x256.rank)
  dot_S64x16_S4x16_S64x4_1_1_0_0_n_n_wf : DotDims.WF S64x16 S4x16 S64x4 [1] [1] [0] [0] [] []
  dot_S64x4_S16x4_S64x16_1_1_0_0_n_n_wf : DotDims.WF S64x4 S16x4 S64x16 [1] [1] [0] [0] [] []

variable [Facts₀]

def dot_S64x16_S4x16_S64x4_1_1_0_0_n_n : DotDims S64x16 S4x16 S64x4 where
  lhsContracting := [1]
  rhsContracting := [1]
  lhsNonContracting := [0]
  rhsNonContracting := [0]
  lhsBatch := []
  rhsBatch := []
  wf := dot_S64x16_S4x16_S64x4_1_1_0_0_n_n_wf
def dot_S64x4_S16x4_S64x16_1_1_0_0_n_n : DotDims S64x4 S16x4 S64x16 where
  lhsContracting := [1]
  rhsContracting := [1]
  lhsNonContracting := [0]
  rhsNonContracting := [0]
  lhsBatch := []
  rhsBatch := []
  wf := dot_S64x4_S16x4_S64x16_1_1_0_0_n_n_wf

class Facts : Prop extends Facts₀ where

variable [Facts]
-- ==== Proof.K.Dats.lean ====
/-
  The proof data of the two pipelines, stated at the buffer contents `V` a region is entered from.

  Region 0 sums each (batch, head) plane of the big array in two column tiles. Its grid is 8 batch groups by 2
  tiles, the tile index fastest, so point `t` is tile `t % 2` of group `t / 2`. A VMEM accumulator is carried
  from the even point to the odd one: at an even point it is reset to zero and the tile's plane sums are added;
  at an odd point the tile's plane sums are added to what the even point left, and the accumulator times 2⁻¹⁶ is
  stored into the output block, which is written back there. Since only two tiles meet, the accumulator after a
  point is a closed expression in at most two input blocks — no recursion over the points is needed.

  Region 1 multiplies batch `t`'s 16×256×256 block by that batch's 16 per-head scales, broadcast over the plane.
-/
import proofs.«126365_j48490180772307_1_alg».proof.Proof.Gen.Kernel.Launch
import proofs.«126365_j48490180772307_1_alg».proof.Proof.Gen.Kernel.Skeleton
import proofs.«126365_j48490180772307_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents a region is entered from
variable (V : (c : Dev nD) → (b : Ref sig .tc) → Buf (Elt F) ((c : Thread nD τ).loc b))

/-! ## Region 0: the plane sums -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `t`: at an even point the tile's plane sums over zero; at an odd point the tile's
    plane sums over what the even point before it left. -/
def acc0 (c : Dev nD) (t : Fin cfg0.N) : Vec F S8x16 .f32 :=
  if h : t.val % 2 = 0 then k0_pay2 (iblk0 V c 0 t) (k0_pay1 (F := F))
  else k0_pay2 (iblk0 V c 0 t) (k0_pay2 (iblk0 V c 0 ⟨t.val - 1, by omega⟩) (k0_pay1 (F := F)))

/-- The output block at point `t` (stored, and written back, at the odd points only): the accumulator scaled. -/
def out0 (c : Dev nD) (t : Fin cfg0.N) : Vec F S8x16 .f32 := k0_pay3 (acc0 V c t)

/-- The accumulator's memref. -/
abbrev scM0 : Memref sig .tc .vmem S8x16 .f32 := Memref.whole cc0_scratch0

/-- Region 1's staging buffers: scoped buffers region 0 never touches, each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- Region 0's invariant before position `n`: before the first point every scoped non-staging buffer at anything;
    afterwards the accumulator at what the point before left, the other scoped buffers at anything, and the generator
    register at some state. -/
def PhiS0 (c : Dev nD) : (n : ℕ) → n ≤ cfg0.N → sProp 𝕄
  | 0, _ => Pipeline.ΦA spec0 c
  | n + 1, hn => iprop(owns (c : Thread nD τ) scM0 fullShare (acc0 V c ⟨n, hn⟩) ∗ rest0 (F := F) c ∗ (∃ r, prngReg c r))

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0 V c t := by dsimp only [dat0]

/-! ## Region 1: the scaled planes -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block at point `t`: batch `t`'s planes times its scales. -/
def out1 (c : Dev nD) (t : Fin cfg1.N) : Vec F S1x16x256x256 .f32 := k1_pay1 (iblk1 V c 0 t) (iblk1 V c 1 t)

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]

end Cert.Kernel.Hand

end
-- ==== Proof.K.Region0.lean ====
/-
  Region 0's body, point by point: at every grid point the kernel body, called on the point's staging buffers and the
  accumulator, takes region 0's invariant before the point to the invariant after it, leaving each window's buffer at
  what the proof data say (the input block untouched; the output block at the scaled accumulator at the odd points,
  untouched at the even points, where the window is idle and not written back).
-/
import proofs.«126365_j48490180772307_1_alg».proof.Proof.K.Dats
import Idealize.ShloMosaic.Lib.Ring
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditionals over the grid -/

/-- The first conditional's condition (the reset), from the grid coordinates: the tile index is 0. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional's condition (the output store): the tile index is 1. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-- The input window is never idle. -/
theorem liveAt0_0 : ∀ t : Fin cfg0.N, cfg0.idle 0 (grid0.coords t) = false := by decide +kernel
/-- At the even points the output window is idle, -/
theorem idleAt0_1_A : ∀ t : Fin cfg0.N, cond0_0 (grid0.coords t) → ¬cond0_1 (grid0.coords t) → cfg0.idle 1 (grid0.coords t) = true := by decide +kernel
/-- and its block is not written back. -/
theorem noFlush0_1_A : ∀ t : Fin cfg0.N, cond0_0 (grid0.coords t) → ¬cond0_1 (grid0.coords t) → (cfg0.win 1).flush t = false := by decide +kernel
/-- At the odd points the output window is live. -/
theorem liveAt0_1_B : ∀ t : Fin cfg0.N, ¬cond0_0 (grid0.coords t) → cond0_1 (grid0.coords t) → cfg0.idle 1 (grid0.coords t) = false := by decide +kernel

/-! ## The staging memrefs at a point -/

abbrev ms0_0 (t : Fin cfg0.N) : Memref sig .tc .vmem S8x16x256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x16 .f32 := win0_1.stage (cfg0.slots t 1)
abbrev hs0_1 (t : Fin cfg0.N) : (ms0_1 t).IsWhole := hstage0_1 ((cfg0.slots t 1).cast nbuf0_1)

/-- The class invariant with the accumulator as a memref owned at some contents. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA; rw [scopedRest0_eq]; simp only [scM0, owns_whole, rest0]; rfl

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## The body's run in each case -/

set_option maxHeartbeats 1000000 in
/-- The even points (the reset taken, the output store not): on whole memrefs — the input's at its block, the output's at
    contents handed back untouched, the accumulator at anything — the body runs to the continuation holding the input's and
    the output's as they were and the accumulator with the pieces written. -/
noncomputable def kernelRun0_A (c : Dev nD) (i : grid0.Coords) (arg2 : Memref sig .tc .vmem S8x16x256x128 .f32) (harg2 : arg2.IsWhole) (arg3 : Memref sig .tc .vmem S8x16 .f32) (harg3 : arg3.IsWhole) (arg4 : Memref sig .tc .vmem S8x16 .f32) (harg4 : arg4.IsWhole) (hc0 : cond0_0 i) (hc1 : ¬cond0_1 i)
    (x0 : Vec F S8x16x256x128 .f32) :
    { LS0 : List (View.Piece (Elt F) S8x16 .f32) //
      ∀ (xi1 : Vec F S8x16 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0_gap_kernel i arg2 harg2 arg3 harg3 arg4 harg4) K } := by
  refine ⟨?_, fun xi1 E K => ?run⟩
  case run =>
    simp only [cc0_gap_kernel_eq_skeleton]; unfold cc0_gap_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- The odd points (the reset not taken, the output store taken): the input's memref at its block, the output's at anything,
    the accumulator at what the even point before left; the body runs to the continuation holding the input's as it was and
    the output's and the accumulator each with the pieces written. -/
noncomputable def kernelRun0_B (c : Dev nD) (i : grid0.Coords) (arg2 : Memref sig .tc .vmem S8x16x256x128 .f32) (harg2 : arg2.IsWhole) (arg3 : Memref sig .tc .vmem S8x16 .f32) (harg3 : arg3.IsWhole) (arg4 : Memref sig .tc .vmem S8x16 .f32) (harg4 : arg4.IsWhole) (hc0 : ¬cond0_0 i) (hc1 : cond0_1 i)
    (x0 : Vec F S8x16x256x128 .f32) (xs0 : Vec F S8x16 .f32) :
    Σ' (L1 : List (View.Piece (Elt F) S8x16 .f32)), { LS0 : List (View.Piece (Elt F) S8x16 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0_gap_kernel i arg2 harg2 arg3 harg3 arg4 harg4) K } := by
  refine ⟨?_, ?_, fun E K => ?run⟩
  case run =>
    simp only [cc0_gap_kernel_eq_skeleton]; unfold cc0_gap_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

/-! ## What the pieces of each case leave -/

/-- The even points' pieces for the accumulator cover it. -/
theorem scover0_A (c : Dev nD) (i : grid0.Coords) (arg2 : Memref sig .tc .vmem S8x16x256x128 .f32) (harg2 : arg2.IsWhole) (arg3 : Memref sig .tc .vmem S8x16 .f32) (harg3 : arg3.IsWhole) (arg4 : Memref sig .tc .vmem S8x16 .f32) (harg4 : arg4.IsWhole) (hc0 : cond0_0 i) (hc1 : ¬cond0_1 i)
    (x0 : Vec F S8x16x256x128 .f32) (y : S8x16.Idx) :
    ∃ pc ∈ (kernelRun0_A c i arg2 harg2 arg3 harg3 arg4 harg4 hc0 hc1 x0).1, y ∈ pc.1.set :=
  View.cover_of_tiledL (kernelRun0_A c i arg2 harg2 arg3 harg3 arg4 harg4 hc0 hc1 x0).1 S8x16.size (by sl_kernel_rfl) y

/-- At an even point the accumulator ends at the block's plane sums over the zeros: the reset's store, read back whole by
    the load between, then the update's store, which covers. -/
theorem canon0_A (c : Dev nD) (i : grid0.Coords) (arg2 : Memref sig .tc .vmem S8x16x256x128 .f32) (harg2 : arg2.IsWhole) (arg3 : Memref sig .tc .vmem S8x16 .f32) (harg3 : arg3.IsWhole) (arg4 : Memref sig .tc .vmem S8x16 .f32) (harg4 : arg4.IsWhole) (hc0 : cond0_0 i) (hc1 : ¬cond0_1 i)
    (x0 : Vec F S8x16x256x128 .f32) :
    View.canon (kernelRun0_A c i arg2 harg2 arg3 harg3 arg4 harg4 hc0 hc1 x0).1 = k0_pay2 x0 (k0_pay1 (F := F)) := by
  unfold kernelRun0_A
  dsimp only
  sl_unfold_words
  rw [View.canon_cons_unit_zero (S := S8x16) hz2, View.readCov_unit_zero (S := S8x16) _ hz2]
  simp only [View.readAt_eq_ld, harg2.read_unread, View.ld_unit_zero (S := S8x16x256x128) hz4]

/-- The odd points' pieces for the accumulator cover it. -/
theorem scover0_B (c : Dev nD) (i : grid0.Coords) (arg2 : Memref sig .tc .vmem S8x16x256x128 .f32) (harg2 : arg2.IsWhole) (arg3 : Memref sig .tc .vmem S8x16 .f32) (harg3 : arg3.IsWhole) (arg4 : Memref sig .tc .vmem S8x16 .f32) (harg4 : arg4.IsWhole) (hc0 : ¬cond0_0 i) (hc1 : cond0_1 i)
    (x0 : Vec F S8x16x256x128 .f32) (xs0 : Vec F S8x16 .f32) (y : S8x16.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S8x16.size (by sl_kernel_rfl) y

/-- At an odd point, from accumulator contents `xs0`, the accumulator ends at the block's plane sums over `xs0`: one
    covering store, whose loads read the whole buffers. -/
theorem canon0_B_S (c : Dev nD) (i : grid0.Coords) (arg2 : Memref sig .tc .vmem S8x16x256x128 .f32) (harg2 : arg2.IsWhole) (arg3 : Memref sig .tc .vmem S8x16 .f32) (harg3 : arg3.IsWhole) (arg4 : Memref sig .tc .vmem S8x16 .f32) (harg4 : arg4.IsWhole) (hc0 : ¬cond0_0 i) (hc1 : cond0_1 i)
    (x0 : Vec F S8x16x256x128 .f32) (xs0 : Vec F S8x16 .f32) :
    View.canon (kernelRun0_B c i arg2 harg2 arg3 harg3 arg4 harg4 hc0 hc1 x0 xs0).2.1 = k0_pay2 x0 xs0 := by
  unfold kernelRun0_B
  dsimp only
  sl_unfold_words
  rw [View.canon_unit_zero (S := S8x16) hz2]
  simp only [View.readAt_eq_ld, harg2.read_unread, harg4.read_unread, View.ld_unit_zero (S := S8x16x256x128) hz4, View.ld_unit_zero (S := S8x16) hz2]

/-- The odd points' pieces for the output cover its block. -/
theorem cover0_B_1 (c : Dev nD) (i : grid0.Coords) (arg2 : Memref sig .tc .vmem S8x16x256x128 .f32) (harg2 : arg2.IsWhole) (arg3 : Memref sig .tc .vmem S8x16 .f32) (harg3 : arg3.IsWhole) (arg4 : Memref sig .tc .vmem S8x16 .f32) (harg4 : arg4.IsWhole) (hc0 : ¬cond0_0 i) (hc1 : cond0_1 i)
    (x0 : Vec F S8x16x256x128 .f32) (xs0 : Vec F S8x16 .f32) (y : S8x16.Idx) :
    ∃ pc ∈ (kernelRun0_B c i arg2 harg2 arg3 harg3 arg4 harg4 hc0 hc1 x0 xs0).1, y ∈ pc.1.set :=
  View.cover_of_tiledL (kernelRun0_B c i arg2 harg2 arg3 harg3 arg4 harg4 hc0 hc1 x0 xs0).1 S8x16.size (by sl_kernel_rfl) y

/-- and leave there the updated accumulator scaled: the accumulator's store read back whole, then one covering store. -/
theorem canon0_B_1 (c : Dev nD) (i : grid0.Coords) (arg2 : Memref sig .tc .vmem S8x16x256x128 .f32) (harg2 : arg2.IsWhole) (arg3 : Memref sig .tc .vmem S8x16 .f32) (harg3 : arg3.IsWhole) (arg4 : Memref sig .tc .vmem S8x16 .f32) (harg4 : arg4.IsWhole) (hc0 : ¬cond0_0 i) (hc1 : cond0_1 i)
    (x0 : Vec F S8x16x256x128 .f32) (xs0 : Vec F S8x16 .f32) :
    View.canon (kernelRun0_B c i arg2 harg2 arg3 harg3 arg4 harg4 hc0 hc1 x0 xs0).1 = k0_pay3 (k0_pay2 x0 xs0) := by
  unfold kernelRun0_B
  dsimp only
  sl_unfold_words
  rw [View.canon_unit_zero (S := S8x16) hz2, View.readCov_unit_zero (S := S8x16) _ hz2]
  simp only [View.readAt_eq_ld, harg2.read_unread, harg4.read_unread, View.ld_unit_zero (S := S8x16x256x128) hz4, View.ld_unit_zero (S := S8x16) hz2]

/-! ## The invariant and the accumulator, by the point -/

theorem PhiS0_zero (c : Dev nD) (n : ℕ) (h : n ≤ cfg0.N) (hz : n = 0) : PhiS0 V c n h = Pipeline.ΦA spec0 c := by
  subst hz; rfl

/-- After point `t`: the accumulator at that point's contents. -/
theorem PhiS0_succ (c : Dev nD) (t : Fin cfg0.N) :
    (dat0 V c).Φ t.succ = iprop(owns (c : Thread nD τ) scM0 fullShare (acc0 V c t) ∗ rest0 (F := F) c ∗ (∃ r, prngReg c r)) := rfl

/-- Before a point that is not the first: the accumulator at what the point before left. -/
theorem PhiS0_pos (c : Dev nD) (n : ℕ) (h : n ≤ cfg0.N) (hz : n ≠ 0) :
    PhiS0 V c n h = iprop(owns (c : Thread nD τ) scM0 fullShare (acc0 V c ⟨n - 1, by omega⟩) ∗ rest0 (F := F) c ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- The accumulator after an even point: the block's plane sums over zero. -/
theorem acc0_even (c : Dev nD) (t : Fin cfg0.N) (h : t.val % 2 = 0) :
    acc0 V c t = k0_pay2 (iblk0 V c 0 t) (k0_pay1 (F := F)) := by
  unfold acc0; rw [dif_pos h]

/-- The accumulator after an odd point: the block's plane sums over what the even point before left. -/
theorem acc0_odd (c : Dev nD) (t : Fin cfg0.N) (h : ¬t.val % 2 = 0) :
    acc0 V c t = k0_pay2 (iblk0 V c 0 t) (k0_pay2 (iblk0 V c 0 ⟨t.val - 1, by omega⟩) (k0_pay1 (F := F))) := by
  unfold acc0; rw [dif_neg h]

/-- The input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The input's memref holds its block; the parity of the point says which case it is in. At an
    even point the accumulator is handed over at anything (the class invariant at the first point, what the odd point before
    left afterwards) and taken back at the block's plane sums over zero; the output window is idle and handed back as found.
    At an odd point the accumulator is handed over at what the even point before left and taken back at the block's plane
    sums over that, and the output's memref at that scaled. The other scoped buffers, the generator register and what the
    core owes pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat0 V c).owesAt () t.succ = (dat0 V c).owesAt () t.castSucc from rfl]
  rw [PhiS0_succ]
  have hN : t.val < 16 := lt_of_lt_of_eq t.isLt (show cfg0.N = 16 from N_0)
  by_cases h0 : t.val % 2 = 0
  · have h1 : ¬t.val % 2 = 1 := by omega
    rw [show (dat0 V c).leavesExact 0 t = owns (c : Thread nD τ) (ms0_0 t) fullShare ((dat0 V c).after 0 t) from by
      unfold Dat.leavesExact; rw [liveAt0_0 t], after0_0]
    rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
    rw [acc0_even V c t h0]
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩⟩
      iapply ((kernelRun0_A c (grid0.coords t) (ms0_0 t) (hs0_0 t) (ms0_1 t) (hs0_1 t) scM0 (Memref.isWhole_whole _) ((hcond0_0 t).mpr h0) (fun h => h1 ((hcond0_1 t).mp h)) (iblk0 V c 0 t)).2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0]
        · unfold owns; iexists _; isplitr
          swap; · iexact HS0
          ipureintro
          rw [View.read_writes_eq_canon _ _ _ (scover0_A c (grid0.coords t) (ms0_0 t) (hs0_0 t) (ms0_1 t) (hs0_1 t) scM0 (Memref.isWhole_whole _) ((hcond0_0 t).mpr h0) (fun h => h1 ((hcond0_1 t).mp h)) (iblk0 V c 0 t))]
          exact canon0_A c (grid0.coords t) (ms0_0 t) (hs0_0 t) (ms0_1 t) (hs0_1 t) scM0 (Memref.isWhole_whole _) ((hcond0_0 t).mpr h0) (fun h => h1 ((hcond0_1 t).mp h)) (iblk0 V c 0 t)
        isplitl [Hr]; · iexact Hr
        iexact Hg
      isplitl [Ho]; · iexact Ho
      isplitl [H0]; · iexact H0
      iexists _; iexact H1
    · rw [PhiS0_castSucc V c t, PhiS0_pos V c _ _ hz]
      iintro ⟨⟨HS0, Hr, Hg⟩, Ho, ⟨%d0, H0⟩, ⟨%d1, H1⟩⟩
      iapply ((kernelRun0_A c (grid0.coords t) (ms0_0 t) (hs0_0 t) (ms0_1 t) (hs0_1 t) scM0 (Memref.isWhole_whole _) ((hcond0_0 t).mpr h0) (fun h => h1 ((hcond0_1 t).mp h)) (iblk0 V c 0 t)).2 _ Set.univ _)
      isplitl [H0]; · iexact H0
      isplitl [H1]; · iexact H1
      isplitl [HS0]; · iexists _; iexact HS0
      iintro ⟨H0, H1, ⟨%es0, HS0⟩⟩
      isplitl [HS0 Hr Hg]
      · isplitl [HS0]
        · unfold owns; iexists _; isplitr
          swap; · iexact HS0
          ipureintro
          rw [View.read_writes_eq_canon _ _ _ (scover0_A c (grid0.coords t) (ms0_0 t) (hs0_0 t) (ms0_1 t) (hs0_1 t) scM0 (Memref.isWhole_whole _) ((hcond0_0 t).mpr h0) (fun h => h1 ((hcond0_1 t).mp h)) (iblk0 V c 0 t))]
          exact canon0_A c (grid0.coords t) (ms0_0 t) (hs0_0 t) (ms0_1 t) (hs0_1 t) scM0 (Memref.isWhole_whole _) ((hcond0_0 t).mpr h0) (fun h => h1 ((hcond0_1 t).mp h)) (iblk0 V c 0 t)
        isplitl [Hr]; · iexact Hr
        iexact Hg
      isplitl [Ho]; · iexact Ho
      isplitl [H0]; · iexact H0
      iexists _; iexact H1
  · have h1 : t.val % 2 = 1 := by omega
    have hz : t.val ≠ 0 := by omega
    have hlt : t.val - 1 < cfg0.N := Nat.lt_of_le_of_lt (Nat.sub_le _ _) t.isLt
    have hprev : acc0 V c ⟨t.val - 1, hlt⟩ = k0_pay2 (iblk0 V c 0 ⟨t.val - 1, hlt⟩) (k0_pay1 (F := F)) :=
      acc0_even V c ⟨t.val - 1, hlt⟩ (by show (t.val - 1) % 2 = 0; omega)
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1_B t (fun h => h0 ((hcond0_0 t).mp h)) ((hcond0_1 t).mpr h1)], after0_1]
    unfold out0
    rw [acc0_odd V c t h0]
    rw [PhiS0_castSucc V c t, PhiS0_pos V c _ _ hz, hprev]
    iintro ⟨⟨HS0, Hr, Hg⟩, Ho, ⟨%d0, H0⟩, ⟨%d1, H1⟩⟩
    iapply ((kernelRun0_B c (grid0.coords t) (ms0_0 t) (hs0_0 t) (ms0_1 t) (hs0_1 t) scM0 (Memref.isWhole_whole _) (fun h => h0 ((hcond0_0 t).mp h)) ((hcond0_1 t).mpr h1) (iblk0 V c 0 t) (k0_pay2 (iblk0 V c 0 ⟨t.val - 1, hlt⟩) (k0_pay1 (F := F)))).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hr Hg]
    · isplitl [HS0]
      · unfold owns; iexists _; isplitr
        swap; · iexact HS0
        ipureintro
        rw [View.read_writes_eq_canon _ _ _ (scover0_B c (grid0.coords t) (ms0_0 t) (hs0_0 t) (ms0_1 t) (hs0_1 t) scM0 (Memref.isWhole_whole _) (fun h => h0 ((hcond0_0 t).mp h)) ((hcond0_1 t).mpr h1) (iblk0 V c 0 t) (k0_pay2 (iblk0 V c 0 ⟨t.val - 1, hlt⟩) (k0_pay1 (F := F))))]
        exact canon0_B_S c (grid0.coords t) (ms0_0 t) (hs0_0 t) (ms0_1 t) (hs0_1 t) scM0 (Memref.isWhole_whole _) (fun h => h0 ((hcond0_0 t).mp h)) ((hcond0_1 t).mpr h1) (iblk0 V c 0 t) (k0_pay2 (iblk0 V c 0 ⟨t.val - 1, hlt⟩) (k0_pay1 (F := F)))
      isplitl [Hr]; · iexact Hr
      iexact Hg
    isplitl [Ho]; · iexact Ho
    isplitl [H0]; · iexact H0
    unfold owns; iexists _; isplitr
    swap; · iexact H1
    ipureintro
    rw [View.read_writes_eq_canon _ _ _ (cover0_B_1 c (grid0.coords t) (ms0_0 t) (hs0_0 t) (ms0_1 t) (hs0_1 t) scM0 (Memref.isWhole_whole _) (fun h => h0 ((hcond0_0 t).mp h)) ((hcond0_1 t).mpr h1) (iblk0 V c 0 t) (k0_pay2 (iblk0 V c 0 ⟨t.val - 1, hlt⟩) (k0_pay1 (F := F))))]
    exact canon0_B_1 c (grid0.coords t) (ms0_0 t) (hs0_0 t) (ms0_1 t) (hs0_1 t) scM0 (Memref.isWhole_whole _) (fun h => h0 ((hcond0_0 t).mp h)) ((hcond0_1 t).mpr h1) (iblk0 V c 0 t) (k0_pay2 (iblk0 V c 0 ⟨t.val - 1, hlt⟩) (k0_pay1 (F := F)))

/-- What the launch hands region 0 is its invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class invariant back: the accumulator's named contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 16 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨HS0, Hr, Hg⟩
  isplitl [HS0 Hr]
  · isplitl [HS0]
    · iexists _; iexact HS0
    iexact Hr
  iexact Hg

/-- The body obligation of region 0, at every point. -/
theorem body_obligation0 (c : Dev nD) : BodyObligation (dat0 (F := F) V c) (defs₀ (F := F)) Variants.none () Set.univ := by
  intro t
  rw [bigSep_W0, bigSep_W0]
  exact sound_body V c t

end Cert.Kernel.Hand

end
-- ==== Proof.K.Region1.lean ====
/-
  Region 1's body, point by point: at every grid point the kernel body loads batch t's 16×256×256 block and its 16
  scales, and stores their product (the scales broadcast over each plane) into the output block; the inputs' buffers
  are left as found and the invariant (the scoped buffers that are no staging buffer of this region, the generator
  register) passes through unread.
-/
import proofs.«126365_j48490180772307_1_alg».proof.Proof.K.Dats
import Idealize.ShloMosaic.Lib.Pipeline.Value
import Idealize.ShloMosaic.Lib.Ring

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers -/

/-- Input window 0 (the big array) is uncut and never idle, so its current staging buffer holds batch `t`'s block at
    every point, fetched there or not: unfetched, the block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1 (the scales) likewise holds batch `t`'s 16 scales at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body's accesses -/

/-- A whole-buffer rectangle's offsets are zero. -/
theorem hz1 : (![0, 0, 0, 0] : Fin 4 → Nat) = fun _ => 0 := funext fun a => by fin_cases a <;> rfl

/-- The whole 1×16×256×256 block. -/
abbrev r1_0 : Rect S1x16x256x256 := Rect.unit (s := S1x16x256x256) ![0, 0, 0, 0] S1x16x256x256.size inb_S1x16x256x256_S1x16x256x256_0_0_0_0
/-- The whole 1×16×1×1 block of scales. -/
abbrev r1_1 : Rect S1x16x1x1 := Rect.unit (s := S1x16x1x1) ![0, 0, 0, 0] S1x16x1x1.size inb_S1x16x1x1_S1x16x1x1_0_0_0_0

/-- The one store is through the whole block, so it covers it. -/
theorem cover1_2 (p0 : Vec F S1x16x256x256 .f32) (y : S1x16x256x256.Idx) :
    ∃ pc ∈ ([⟨r1_0, p0⟩] : List (View.Piece (Elt F) S1x16x256x256 .f32)), y ∈ pc.1.set :=
  ⟨_, List.mem_singleton_self _, View.mem_set_unit_zero (S := S1x16x256x256) hz1 inb_S1x16x256x256_S1x16x256x256_0_0_0_0 y⟩

/-- What the one whole-block store leaves, read back, is its payload on the whole-block loads' values: the product
    of the block and its scales. -/
theorem out1_eq (x0 : Vec F S1x16x256x256 .f32) (x1 : Vec F S1x16x1x1 .f32) :
    View.canon [(⟨r1_0, k1_pay1 (View.ld x0 r1_0) (View.ld x1 r1_1)⟩ : View.Piece (Elt F) S1x16x256x256 .f32)] = k1_pay1 x0 x1 := by
  rw [View.canon_unit_zero (S := S1x16x256x256) hz1 inb_S1x16x256x256_S1x16x256x256_0_0_0_0,
    View.ld_unit_zero (S := S1x16x256x256) hz1 inb_S1x16x256x256_S1x16x256x256_0_0_0_0 x0,
    View.ld_unit_zero (S := S1x16x1x1) hz1 inb_S1x16x1x1_S1x16x1x1_0_0_0_0 x1]

/-! ## The body's triple -/

set_option maxHeartbeats 1000000 in
/-- The kernel body on whole staging memrefs, the inputs' at contents `x0`, `x1` and the output's at anything, runs
    to the continuation holding the inputs' as they were and the output's at the product of `x0` and `x1`. -/
theorem sound_kernel1 (c : Dev nD) (E : Set ℕ) (i : grid1.Coords)
    (arg1 : Memref sig .tc .vmem S1x16x256x256 .f32) (harg1 : arg1.IsWhole)
    (arg2 : Memref sig .tc .vmem S1x16x1x1 .f32) (harg2 : arg2.IsWhole)
    (arg3 : Memref sig .tc .vmem S1x16x256x256 .f32) (harg3 : arg3.IsWhole)
    (x0 : Vec F S1x16x256x256 .f32) (x1 : Vec F S1x16x1x1 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1_mul_kernel i arg1 harg1 arg2 harg2 arg3 harg3) K := by
  simp only [cc1_mul_kernel_eq_skeleton]; unfold cc1_mul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ (cover1_2 _)).trans (out1_eq _ _)

/-! ## The body obligation, at a generic point -/

/-- What the body is called with at point `t`: the invariant, what the core owes, and each window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold batch `t`'s block and scales, so the kernel's triple applies at
    them; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold out1
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.ValueCond.lean ====
/-
  The launch of the two-region program with its RESULT read back: the statement of the conditional frame of this
  program (every argument array ends as launched, given one segment record per kernel region pinned to the thread states
  "every unscoped buffer at the valuation before / after the item, beside a rest") with one more conjunct, the result
  array `main_v21` at what region 1 is said to leave there. The valuations, the host stretches as segments and the
  segment list are the conditional frame's own; only the last valuation is read at one more buffer.
-/
import proofs.«126365_j48490180772307_1_alg».proof.Proof.Gen.Kernel.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

variable (m : (ℓ : Loc nD τ sig) → Buf (Elt F) ℓ) (outs : Outs (F := F))

/-- The last valuation at the result array: what region 1 leaves there. -/
theorem V5_main_v21 (c : Dev nD) : V5 m outs c main_v21 = outs 5 main_v21 c := by
  simp only [V5, Function.update_self]

-- `θ_run_regions_kit_dev`'s implicit arguments are found by unifying its conclusion with this one, which takes unfolding
-- plain definitions in a metavariable's type
set_option backward.isDefEq.respectTransparency.types false in
/-- The conditional run with the result named. Under the hypotheses of the conditional frame — per region a segment
    record entered from the thread state before it and left at the one after it — every weakly fair execution of @main
    from memory `m` with zero counters terminates, every final memory holds each argument as launched, and the result
    array holds what region 1 is said to leave in it (`outs 5 main_v21`): the last valuation is an update at that array,
    read at the updated point. -/
theorem value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c)) :
    θ_run defs (onTc (τ := τ) (main (F := F))) ⟨m, fun _ => 0, ρ⟩ (fun r => ∀ c : Dev nD,
      r.2.mem ((c.tc : Thread nD τ).loc main_v21) = outs 5 main_v21 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨hpre0 c, hpost0 c, .rfl, .rfl, hpre1 c, (hpost1 c).trans (sep_mono .rfl (hE2 c))⟩)
    (hinit := ?_) (QY := fun c s => s.mem ((c.tc : Thread nD τ).loc main_v21) = outs 5 main_v21 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact ⟨(h (Proc.devRef .tc main_v21) (Finset.mem_filter.mpr ⟨StableHlo.devRef_mem_tcRefs main_v21, by decide⟩)).trans (V5_main_v21 m outs c),
        (h (Proc.devRef .tc main_arg0) (Finset.mem_filter.mpr ⟨StableHlo.devRef_mem_tcRefs main_arg0, by decide⟩)).trans (V5_main_arg0 m outs c),
        (h (Proc.devRef .tc main_arg1) (Finset.mem_filter.mpr ⟨StableHlo.devRef_mem_tcRefs main_arg1, by decide⟩)).trans (V5_main_arg1 m outs c),
        (h (Proc.devRef .tc main_arg2) (Finset.mem_filter.mpr ⟨StableHlo.devRef_mem_tcRefs main_arg2, by decide⟩)).trans (V5_main_arg2 m outs c),
        (h (Proc.devRef .tc main_arg3) (Finset.mem_filter.mpr ⟨StableHlo.devRef_mem_tcRefs main_arg3, by decide⟩)).trans (V5_main_arg3 m outs c),
        (h (Proc.devRef .tc main_arg4) (Finset.mem_filter.mpr ⟨StableHlo.devRef_mem_tcRefs main_arg4, by decide⟩)).trans (V5_main_arg4 m outs c)⟩
    · iexact HSI

end Cert.Kernel.Hand

end
-- ==== Proof.K.Segs.lean ====
/-
  @main as segments. The program is: region 0 (the plane sums), three stretches of host operations (the small
  two-layer network with its truncating cast, ending in the scales reshaped to 64×16×1×1), region 1 (the scaled planes).
  Between two items a core holds every unscoped buffer at a valuation: the launch memory; then region 0's output
  array at what its write-backs leave; then each host stretch applied; then region 1's output array at what its
  write-backs leave. Each region is a segment record around those thread states: its arrays are split out of the
  unscoped buffers at entry and put back at their final contents at exit, the generator register goes into the region's
  invariant and comes back, nothing is owed, and the kernels have no semaphore of their own.
-/
import proofs.«126365_j48490180772307_1_alg».proof.Proof.K.Region0
import proofs.«126365_j48490180772307_1_alg».proof.Proof.K.Region1
import proofs.«126365_j48490180772307_1_alg».proof.Proof.K.ValueCond
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the regions are entered from and leave -/

/-- Region 0 is entered from the launch memory. -/
abbrev Ve0 : (c : Dev nD) → (b : Ref sig .tc) → Buf (Elt F) ((c : Thread nD τ).loc b) := fun c b => Gen.V0 m c b

/-- What region 0 leaves: its arrays at what its write-backs leave, every other buffer as launched. -/
def outsA : Gen.Outs (F := F) := fun _ r c =>
  Pipeline.withArrays spec0 c (Gen.V0 m c) (fun w => (dat0 (Ve0 m) c).arrAt w cfg0.N) (Proc.devRef .tc r)

/-- Region 1 is entered from the launch memory with region 0's output written and the three host stretches applied. -/
abbrev Ve1 : (c : Dev nD) → (b : Ref sig .tc) → Buf (Elt F) ((c : Thread nD τ).loc b) := fun c b => Gen.V4 m (outsA m) c b

/-- What the two regions leave: region 0's as above; region 1's arrays at what its write-backs leave. -/
def outs : Gen.Outs (F := F) := fun j r c => match j with
  | 5 => Pipeline.withArrays spec1 c (Gen.V4 m (outsA m) c) (fun w => (dat1 (Ve1 m) c).arrAt w cfg1.N) (Proc.devRef .tc r)
  | _ => outsA m 1 r c

theorem outs_one (c : Dev nD) : outs m 1 main_v0 c = (dat0 (Ve0 m) c).arrAt 1 cfg0.N := by
  show Pipeline.withArrays spec0 c (Gen.V0 m c) (fun w => (dat0 (Ve0 m) c).arrAt w cfg0.N) (Proc.devRef .tc (Pipeline.arrRef spec0 1)) = _
  exact Pipeline.withArrays_arr spec0 Gen.launch0.win.arr_inj c _ _ 1

theorem outs_five (c : Dev nD) : outs m 5 main_v21 c = (dat1 (Ve1 m) c).arrAt 2 cfg1.N := by
  show Pipeline.withArrays spec1 c (Gen.V4 m (outsA m) c) (fun w => (dat1 (Ve1 m) c).arrAt w cfg1.N) (Proc.devRef .tc (Pipeline.arrRef spec1 2)) = _
  exact Pipeline.withArrays_arr spec1 Gen.launch1.win.arr_inj c _ _ 2

/-- Region 1's entry valuation reads region 0's leavings only. -/
theorem V4_outs (c : Dev nD) : Gen.V4 m (outs m) c = Gen.V4 m (outsA m) c := rfl

/-! ## The proof data family and what rides beside the buffers -/

def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the generator register at some state, and nothing owed. -/
abbrev R (c : Dev nD) : sProp 𝕄 := iprop((∃ r, prngReg c r) ∗ ∃ W, owes (c : Thread nD τ) (0 : CellTallies nD τ sig Unit) W)

/-! ## Region 0's exit: its arrays make the next valuation -/

theorem hF0 (c : Dev nD) (w : Fin cfg0.W) : (dat0 (Ve0 m) c).arrAt w cfg0.N = Gen.V1 m (outs m) c (Pipeline.arrRef spec0 w) := by
  match w with
  | ⟨0, _⟩ =>
    exact ((dat0 (Ve0 m) c).arrAt_in 0 rfl _).trans ((A_eq0 (Ve0 m) c 0).trans (Gen.V1_of m (outs m) c main_arg0 (by decide)).symm)
  | ⟨1, _⟩ =>
    exact (outs_one m c).symm.trans (by simp only [Gen.V1, Function.update_self])

theorem hrest0 (c : Dev nD) : ∀ b : Ref sig .tc, b ∉ Finset.univ.image (Pipeline.arrRef spec0) → Gen.V1 m (outs m) c b = Ve0 m c b :=
  fun b hb => Gen.V1_of m (outs m) c b (by
    intro hmem
    simp only [List.mem_singleton] at hmem
    exact hb (Finset.mem_image.mpr ⟨1, Finset.mem_univ _, hmem.symm⟩))

/-! ## Region 1's exit -/

theorem hF1 (c : Dev nD) (w : Fin cfg1.W) : (dat1 (Ve1 m) c).arrAt w cfg1.N = Gen.V5 m (outs m) c (Pipeline.arrRef spec1 w) := by
  match w with
  | ⟨0, _⟩ =>
    exact ((dat1 (Ve1 m) c).arrAt_in 0 rfl _).trans ((A_eq1 (Ve1 m) c 0).trans (Gen.V5_of m (outs m) c main_arg0 (by decide)).symm)
  | ⟨1, _⟩ =>
    exact ((dat1 (Ve1 m) c).arrAt_in 1 rfl _).trans ((A_eq1 (Ve1 m) c 1).trans (Gen.V5_of m (outs m) c main_v20 (by decide)).symm)
  | ⟨2, _⟩ =>
    exact (outs_five m c).symm.trans (V5_main_v21 m (outs m) c).symm

theorem hrest1 (c : Dev nD) : ∀ b : Ref sig .tc, b ∉ Finset.univ.image (Pipeline.arrRef spec1) → Gen.V5 m (outs m) c b = Ve1 m c b :=
  fun b hb => Gen.V5_of m (outs m) c b (by
    intro hmem
    simp only [List.mem_singleton] at hmem
    exact hb (Finset.mem_image.mpr ⟨2, Finset.mem_univ _, hmem.symm⟩))

/-! ## The regions as segments -/

set_option backward.isDefEq.respectTransparency.types false in
/-- Region 0 over the thread states: entered from every unscoped buffer as launched, left with its output array at what
    its write-backs leave. -/
def reg0 : Pipeline.RegionSeg (pcfgs (F := F)) Gen.adm (pdats m) () defs₀ 𝒱₀ L lv 0 where
  win := Gen.launch0.win.to₀
  block_pos := Gen.launch0.block_pos
  stage_whole := Gen.launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) Gen.adm (pdats m) Gen.launch0.win Gen.launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ve0 m) c)
    unfold Pipeline.ΦA
    iintro ⟨Hp, -, Hr⟩
    isplitl [Hr]; · iexact Hr
    iexact Hp
  hout c := by
    rw [Pipeline.ownSems0_none]
    refine (hout0 (Ve0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      Gen.launch0.win Gen.launch0.arr_whole c (pdats m) ((pdats m 0 c).share_full fun _ => rfl)
      (Ve0 m c) (fun b => Gen.V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread states: entered from the valuation after the host stretches, left with the result array at
    what its write-backs leave. -/
def reg1 : Pipeline.RegionSeg (pcfgs (F := F)) Gen.adm (pdats m) () defs₀ 𝒱₀ L lv 1 where
  win := Gen.launch1.win.to₀
  block_pos := Gen.launch1.block_pos
  stage_whole := Gen.launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (Gen.V4 m (outsA m) c) ∗ R c)
  post c := iprop(StableHlo.held (c : Thread nD τ) (Pipeline.ucRefs τ sig) (Gen.V5 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) Gen.adm (pdats m) Gen.launch1.win Gen.launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      Gen.launch1.win Gen.launch1.arr_whole c (pdats m) ((pdats m 1 c).share_full fun _ => rfl)
      (Ve1 m c) (fun b => Gen.V5 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element yields the pipelines' ghost state and nothing else. -/
theorem hu₀ : (ownU (initOf (Pipeline.cells cfgs Gen.cellOf_inj) (Pipeline.launchToks cfgs Gen.cellOf_inj)) : sProp 𝕄)
    ⊢ |={Set.univ}=> iprop(BI.own ((emb₁ : Emb _ 𝕄) (initOf (Pipeline.cells cfgs Gen.cellOf_inj) (Pipeline.launchToks cfgs Gen.cellOf_inj))) ∗ bigSep Finset.univ (fun _ : Dev nD => (BI.emp : sProp 𝕄))) := by
  iintro Hu; imodintro
  isplitl [Hu]
  · iapply (show (ownU (initOf (Pipeline.cells cfgs Gen.cellOf_inj) (Pipeline.launchToks cfgs Gen.cellOf_inj)) : sProp 𝕄)
        ⊢ BI.own (emb₁ (initOf (Pipeline.cells cfgs Gen.cellOf_inj) (Pipeline.launchToks cfgs Gen.cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the rest that rides beside the buffers. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME at any `F`: every weakly fair execution of @main terminates, nothing faulting, and every argument array ends
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m (emb₁ : Emb _ 𝕄) () 𝒱₀ L lv (fun _ _ => rfl) ρ (outs m) (pdats m) (0 : Dev nD → CellTallies nD τ sig Unit)
    (fun _ => (BI.emp : sProp 𝕄)) _ (hu₀ (F := F)) (fun _ c => R (F := F) c) (hE0 ρ)
    (fun c => by iintro ⟨-, H⟩; iexact H)
    (reg0 m) (fun c => .rfl) (fun c => .rfl) (reg1 m) (fun c => .rfl) (fun c => .rfl)

set_option backward.isDefEq.respectTransparency.types false in
/-- THE RUN WITH THE RESULT NAMED, at any `F`: the same, and the result array ends at what region 1's write-backs leave. -/
theorem run_value : θ_run defs (onTc (τ := τ) (main (F := F))) ⟨m, fun _ => 0, ρ⟩ (fun r => ∀ c : Dev nD,
      r.2.mem ((c.tc : Thread nD τ).loc main_v21) = (dat1 (Ve1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (outs_five m c), (h c).2⟩)
    (value_cond m (emb₁ : Emb _ 𝕄) () 𝒱₀ L lv (fun _ _ => rfl) ρ (outs m) (pdats m) (0 : Dev nD → CellTallies nD τ sig Unit)
      (fun _ => (BI.emp : sProp 𝕄)) _ (hu₀ (F := F)) (fun _ c => R (F := F) c) (hE0 ρ)
      (fun c => by iintro ⟨-, H⟩; iexact H)
      (reg0 m) (fun c => .rfl) (fun c => .rfl) (reg1 m) (fun c => .rfl) (fun c => .rfl))

end Cert.Kernel.Hand

end
-- ==== Proof.KI.Dats.lean ====
/-
  The proof data of the two pipelines, stated at the buffer contents `V` a region is entered from.

  Region 0 sums each (batch, head) plane of the big array in two column tiles. Its grid is 8 batch groups by 2
  tiles, the tile index fastest, so point `t` is tile `t % 2` of group `t / 2`. A VMEM accumulator is carried
  from the even point to the odd one: at an even point it is reset to zero and the tile's plane sums are added;
  at an odd point the tile's plane sums are added to what the even point left, and the accumulator times 2⁻¹⁶ is
  stored into the output block, which is written back there. Since only two tiles meet, the accumulator after a
  point is a closed expression in at most two input blocks — no recursion over the points is needed.

  Region 1 multiplies batch `t`'s 16×256×256 block by that batch's 16 per-head scales, broadcast over the plane.
-/
import proofs.«126365_j48490180772307_1_alg».proof.Proof.Gen.KernelIdeal.Launch
import proofs.«126365_j48490180772307_1_alg».proof.Proof.Gen.KernelIdeal.Skeleton
import proofs.«126365_j48490180772307_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents a region is entered from
variable (V : (c : Dev nD) → (b : Ref sig .tc) → Buf (Elt F) ((c : Thread nD τ).loc b))

/-! ## Region 0: the plane sums -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `t`: at an even point the tile's plane sums over zero; at an odd point the tile's
    plane sums over what the even point before it left. -/
def acc0 (c : Dev nD) (t : Fin cfg0.N) : Vec F S8x16 .f32 :=
  if h : t.val % 2 = 0 then k0_pay2 (iblk0 V c 0 t) (k0_pay1 (F := F))
  else k0_pay2 (iblk0 V c 0 t) (k0_pay2 (iblk0 V c 0 ⟨t.val - 1, by omega⟩) (k0_pay1 (F := F)))

/-- The output block at point `t` (stored, and written back, at the odd points only): the accumulator scaled. -/
def out0 (c : Dev nD) (t : Fin cfg0.N) : Vec F S8x16 .f32 := k0_pay3 (acc0 V c t)

/-- The accumulator's memref. -/
abbrev scM0 : Memref sig .tc .vmem S8x16 .f32 := Memref.whole cc0_scratch0

/-- Region 1's staging buffers: scoped buffers region 0 never touches, each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- Region 0's invariant before position `n`: before the first point every scoped non-staging buffer at anything;
    afterwards the accumulator at what the point before left, the other scoped buffers at anything, and the generator
    register at some state. -/
def PhiS0 (c : Dev nD) : (n : ℕ) → n ≤ cfg0.N → sProp 𝕄
  | 0, _ => Pipeline.ΦA spec0 c
  | n + 1, hn => iprop(owns (c : Thread nD τ) scM0 fullShare (acc0 V c ⟨n, hn⟩) ∗ rest0 (F := F) c ∗ (∃ r, prngReg c r))

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0 V c t := by dsimp only [dat0]

/-! ## Region 1: the scaled planes -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block at point `t`: batch `t`'s planes times its scales. -/
def out1 (c : Dev nD) (t : Fin cfg1.N) : Vec F S1x16x256x256 .f32 := k1_pay1 (iblk1 V c 0 t) (iblk1 V c 1 t)

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]

end Cert.KernelIdeal.Hand

end
-- ==== Proof.KI.Region0.lean ====
/-
  Region 0's body, point by point: at every grid point the kernel body, called on the point's staging buffers and the
  accumulator, takes region 0's invariant before the point to the invariant after it, leaving each window's buffer at
  what the proof data say (the input block untouched; the output block at the scaled accumulator at the odd points,
  untouched at the even points, where the window is idle and not written back).
-/
import proofs.«126365_j48490180772307_1_alg».proof.Proof.KI.Dats
import Idealize.ShloMosaic.Lib.Ring
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditionals over the grid -/

/-- The first conditional's condition (the reset), from the grid coordinates: the tile index is 0. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional's condition (the output store): the tile index is 1. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-- The input window is never idle. -/
theorem liveAt0_0 : ∀ t : Fin cfg0.N, cfg0.idle 0 (grid0.coords t) = false := by decide +kernel
/-- At the even points the output window is idle, -/
theorem idleAt0_1_A : ∀ t : Fin cfg0.N, cond0_0 (grid0.coords t) → ¬cond0_1 (grid0.coords t) → cfg0.idle 1 (grid0.coords t) = true := by decide +kernel
/-- and its block is not written back. -/
theorem noFlush0_1_A : ∀ t : Fin cfg0.N, cond0_0 (grid0.coords t) → ¬cond0_1 (grid0.coords t) → (cfg0.win 1).flush t = false := by decide +kernel
/-- At the odd points the output window is live. -/
theorem liveAt0_1_B : ∀ t : Fin cfg0.N, ¬cond0_0 (grid0.coords t) → cond0_1 (grid0.coords t) → cfg0.idle 1 (grid0.coords t) = false := by decide +kernel

/-! ## The staging memrefs at a point -/

abbrev ms0_0 (t : Fin cfg0.N) : Memref sig .tc .vmem S8x16x256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x16 .f32 := win0_1.stage (cfg0.slots t 1)
abbrev hs0_1 (t : Fin cfg0.N) : (ms0_1 t).IsWhole := hstage0_1 ((cfg0.slots t 1).cast nbuf0_1)

/-- The class invariant with the accumulator as a memref owned at some contents. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA; rw [scopedRest0_eq]; simp only [scM0, owns_whole, rest0]; rfl

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## The body's run in each case -/

set_option maxHeartbeats 1000000 in
/-- The even points (the reset taken, the output store not): on whole memrefs — the input's at its block, the output's at
    contents handed back untouched, the accumulator at anything — the body runs to the continuation holding the input's and
    the output's as they were and the accumulator with the pieces written. -/
noncomputable def kernelRun0_A (c : Dev nD) (i : grid0.Coords) (arg2 : Memref sig .tc .vmem S8x16x256x128 .f32) (harg2 : arg2.IsWhole) (arg3 : Memref sig .tc .vmem S8x16 .f32) (harg3 : arg3.IsWhole) (arg4 : Memref sig .tc .vmem S8x16 .f32) (harg4 : arg4.IsWhole) (hc0 : cond0_0 i) (hc1 : ¬cond0_1 i)
    (x0 : Vec F S8x16x256x128 .f32) :
    { LS0 : List (View.Piece (Elt F) S8x16 .f32) //
      ∀ (xi1 : Vec F S8x16 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0_gap_kernel i arg2 harg2 arg3 harg3 arg4 harg4) K } := by
  refine ⟨?_, fun xi1 E K => ?run⟩
  case run =>
    simp only [cc0_gap_kernel_eq_skeleton]; unfold cc0_gap_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- The odd points (the reset not taken, the output store taken): the input's memref at its block, the output's at anything,
    the accumulator at what the even point before left; the body runs to the continuation holding the input's as it was and
    the output's and the accumulator each with the pieces written. -/
noncomputable def kernelRun0_B (c : Dev nD) (i : grid0.Coords) (arg2 : Memref sig .tc .vmem S8x16x256x128 .f32) (harg2 : arg2.IsWhole) (arg3 : Memref sig .tc .vmem S8x16 .f32) (harg3 : arg3.IsWhole) (arg4 : Memref sig .tc .vmem S8x16 .f32) (harg4 : arg4.IsWhole) (hc0 : ¬cond0_0 i) (hc1 : cond0_1 i)
    (x0 : Vec F S8x16x256x128 .f32) (xs0 : Vec F S8x16 .f32) :
    Σ' (L1 : List (View.Piece (Elt F) S8x16 .f32)), { LS0 : List (View.Piece (Elt F) S8x16 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0_gap_kernel i arg2 harg2 arg3 harg3 arg4 harg4) K } := by
  refine ⟨?_, ?_, fun E K => ?run⟩
  case run =>
    simp only [cc0_gap_kernel_eq_skeleton]; unfold cc0_gap_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

/-! ## What the pieces of each case leave -/

/-- The even points' pieces for the accumulator cover it. -/
theorem scover0_A (c : Dev nD) (i : grid0.Coords) (arg2 : Memref sig .tc .vmem S8x16x256x128 .f32) (harg2 : arg2.IsWhole) (arg3 : Memref sig .tc .vmem S8x16 .f32) (harg3 : arg3.IsWhole) (arg4 : Memref sig .tc .vmem S8x16 .f32) (harg4 : arg4.IsWhole) (hc0 : cond0_0 i) (hc1 : ¬cond0_1 i)
    (x0 : Vec F S8x16x256x128 .f32) (y : S8x16.Idx) :
    ∃ pc ∈ (kernelRun0_A c i arg2 harg2 arg3 harg3 arg4 harg4 hc0 hc1 x0).1, y ∈ pc.1.set :=
  View.cover_of_tiledL (kernelRun0_A c i arg2 harg2 arg3 harg3 arg4 harg4 hc0 hc1 x0).1 S8x16.size (by sl_kernel_rfl) y

/-- At an even point the accumulator ends at the block's plane sums over the zeros: the reset's store, read back whole by
    the load between, then the update's store, which covers. -/
theorem canon0_A (c : Dev nD) (i : grid0.Coords) (arg2 : Memref sig .tc .vmem S8x16x256x128 .f32) (harg2 : arg2.IsWhole) (arg3 : Memref sig .tc .vmem S8x16 .f32) (harg3 : arg3.IsWhole) (arg4 : Memref sig .tc .vmem S8x16 .f32) (harg4 : arg4.IsWhole) (hc0 : cond0_0 i) (hc1 : ¬cond0_1 i)
    (x0 : Vec F S8x16x256x128 .f32) :
    View.canon (kernelRun0_A c i arg2 harg2 arg3 harg3 arg4 harg4 hc0 hc1 x0).1 = k0_pay2 x0 (k0_pay1 (F := F)) := by
  unfold kernelRun0_A
  dsimp only
  sl_unfold_words
  rw [View.canon_cons_unit_zero (S := S8x16) hz2, View.readCov_unit_zero (S := S8x16) _ hz2]
  simp only [View.readAt_eq_ld, harg2.read_unread, View.ld_unit_zero (S := S8x16x256x128) hz4]

/-- The odd points' pieces for the accumulator cover it. -/
theorem scover0_B (c : Dev nD) (i : grid0.Coords) (arg2 : Memref sig .tc .vmem S8x16x256x128 .f32) (harg2 : arg2.IsWhole) (arg3 : Memref sig .tc .vmem S8x16 .f32) (harg3 : arg3.IsWhole) (arg4 : Memref sig .tc .vmem S8x16 .f32) (harg4 : arg4.IsWhole) (hc0 : ¬cond0_0 i) (hc1 : cond0_1 i)
    (x0 : Vec F S8x16x256x128 .f32) (xs0 : Vec F S8x16 .f32) (y : S8x16.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S8x16.size (by sl_kernel_rfl) y

/-- At an odd point, from accumulator contents `xs0`, the accumulator ends at the block's plane sums over `xs0`: one
    covering store, whose loads read the whole buffers. -/
theorem canon0_B_S (c : Dev nD) (i : grid0.Coords) (arg2 : Memref sig .tc .vmem S8x16x256x128 .f32) (harg2 : arg2.IsWhole) (arg3 : Memref sig .tc .vmem S8x16 .f32) (harg3 : arg3.IsWhole) (arg4 : Memref sig .tc .vmem S8x16 .f32) (harg4 : arg4.IsWhole) (hc0 : ¬cond0_0 i) (hc1 : cond0_1 i)
    (x0 : Vec F S8x16x256x128 .f32) (xs0 : Vec F S8x16 .f32) :
    View.canon (kernelRun0_B c i arg2 harg2 arg3 harg3 arg4 harg4 hc0 hc1 x0 xs0).2.1 = k0_pay2 x0 xs0 := by
  unfold kernelRun0_B
  dsimp only
  sl_unfold_words
  rw [View.canon_unit_zero (S := S8x16) hz2]
  simp only [View.readAt_eq_ld, harg2.read_unread, harg4.read_unread, View.ld_unit_zero (S := S8x16x256x128) hz4, View.ld_unit_zero (S := S8x16) hz2]

/-- The odd points' pieces for the output cover its block. -/
theorem cover0_B_1 (c : Dev nD) (i : grid0.Coords) (arg2 : Memref sig .tc .vmem S8x16x256x128 .f32) (harg2 : arg2.IsWhole) (arg3 : Memref sig .tc .vmem S8x16 .f32) (harg3 : arg3.IsWhole) (arg4 : Memref sig .tc .vmem S8x16 .f32) (harg4 : arg4.IsWhole) (hc0 : ¬cond0_0 i) (hc1 : cond0_1 i)
    (x0 : Vec F S8x16x256x128 .f32) (xs0 : Vec F S8x16 .f32) (y : S8x16.Idx) :
    ∃ pc ∈ (kernelRun0_B c i arg2 harg2 arg3 harg3 arg4 harg4 hc0 hc1 x0 xs0).1, y ∈ pc.1.set :=
  View.cover_of_tiledL (kernelRun0_B c i arg2 harg2 arg3 harg3 arg4 harg4 hc0 hc1 x0 xs0).1 S8x16.size (by sl_kernel_rfl) y

/-- and leave there the updated accumulator scaled: the accumulator's store read back whole, then one covering store. -/
theorem canon0_B_1 (c : Dev nD) (i : grid0.Coords) (arg2 : Memref sig .tc .vmem S8x16x256x128 .f32) (harg2 : arg2.IsWhole) (arg3 : Memref sig .tc .vmem S8x16 .f32) (harg3 : arg3.IsWhole) (arg4 : Memref sig .tc .vmem S8x16 .f32) (harg4 : arg4.IsWhole) (hc0 : ¬cond0_0 i) (hc1 : cond0_1 i)
    (x0 : Vec F S8x16x256x128 .f32) (xs0 : Vec F S8x16 .f32) :
    View.canon (kernelRun0_B c i arg2 harg2 arg3 harg3 arg4 harg4 hc0 hc1 x0 xs0).1 = k0_pay3 (k0_pay2 x0 xs0) := by
  unfold kernelRun0_B
  dsimp only
  sl_unfold_words
  rw [View.canon_unit_zero (S := S8x16) hz2, View.readCov_unit_zero (S := S8x16) _ hz2]
  simp only [View.readAt_eq_ld, harg2.read_unread, harg4.read_unread, View.ld_unit_zero (S := S8x16x256x128) hz4, View.ld_unit_zero (S := S8x16) hz2]

/-! ## The invariant and the accumulator, by the point -/

theorem PhiS0_zero (c : Dev nD) (n : ℕ) (h : n ≤ cfg0.N) (hz : n = 0) : PhiS0 V c n h = Pipeline.ΦA spec0 c := by
  subst hz; rfl

/-- After point `t`: the accumulator at that point's contents. -/
theorem PhiS0_succ (c : Dev nD) (t : Fin cfg0.N) :
    (dat0 V c).Φ t.succ = iprop(owns (c : Thread nD τ) scM0 fullShare (acc0 V c t) ∗ rest0 (F := F) c ∗ (∃ r, prngReg c r)) := rfl

/-- Before a point that is not the first: the accumulator at what the point before left. -/
theorem PhiS0_pos (c : Dev nD) (n : ℕ) (h : n ≤ cfg0.N) (hz : n ≠ 0) :
    PhiS0 V c n h = iprop(owns (c : Thread nD τ) scM0 fullShare (acc0 V c ⟨n - 1, by omega⟩) ∗ rest0 (F := F) c ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- The accumulator after an even point: the block's plane sums over zero. -/
theorem acc0_even (c : Dev nD) (t : Fin cfg0.N) (h : t.val % 2 = 0) :
    acc0 V c t = k0_pay2 (iblk0 V c 0 t) (k0_pay1 (F := F)) := by
  unfold acc0; rw [dif_pos h]

/-- The accumulator after an odd point: the block's plane sums over what the even point before left. -/
theorem acc0_odd (c : Dev nD) (t : Fin cfg0.N) (h : ¬t.val % 2 = 0) :
    acc0 V c t = k0_pay2 (iblk0 V c 0 t) (k0_pay2 (iblk0 V c 0 ⟨t.val - 1, by omega⟩) (k0_pay1 (F := F))) := by
  unfold acc0; rw [dif_neg h]

/-- The input window's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The input's memref holds its block; the parity of the point says which case it is in. At an
    even point the accumulator is handed over at anything (the class invariant at the first point, what the odd point before
    left afterwards) and taken back at the block's plane sums over zero; the output window is idle and handed back as found.
    At an odd point the accumulator is handed over at what the even point before left and taken back at the block's plane
    sums over that, and the output's memref at that scaled. The other scoped buffers, the generator register and what the
    core owes pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat0 V c).owesAt () t.succ = (dat0 V c).owesAt () t.castSucc from rfl]
  rw [PhiS0_succ]
  have hN : t.val < 16 := lt_of_lt_of_eq t.isLt (show cfg0.N = 16 from N_0)
  by_cases h0 : t.val % 2 = 0
  · have h1 : ¬t.val % 2 = 1 := by omega
    rw [show (dat0 V c).leavesExact 0 t = owns (c : Thread nD τ) (ms0_0 t) fullShare ((dat0 V c).after 0 t) from by
      unfold Dat.leavesExact; rw [liveAt0_0 t], after0_0]
    rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
    rw [acc0_even V c t h0]
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩⟩
      iapply ((kernelRun0_A c (grid0.coords t) (ms0_0 t) (hs0_0 t) (ms0_1 t) (hs0_1 t) scM0 (Memref.isWhole_whole _) ((hcond0_0 t).mpr h0) (fun h => h1 ((hcond0_1 t).mp h)) (iblk0 V c 0 t)).2 _ Set.univ _)
      isplitl [H0]; · iexact H0
      isplitl [H1]; · iexact H1
      isplitl [HS0]; · iexact HS0
      iintro ⟨H0, H1, ⟨%es0, HS0⟩⟩
      isplitl [HS0 Hr Hg]
      · isplitl [HS0]
        · unfold owns; iexists _; isplitr
          swap; · iexact HS0
          ipureintro
          rw [View.read_writes_eq_canon _ _ _ (scover0_A c (grid0.coords t) (ms0_0 t) (hs0_0 t) (ms0_1 t) (hs0_1 t) scM0 (Memref.isWhole_whole _) ((hcond0_0 t).mpr h0) (fun h => h1 ((hcond0_1 t).mp h)) (iblk0 V c 0 t))]
          exact canon0_A c (grid0.coords t) (ms0_0 t) (hs0_0 t) (ms0_1 t) (hs0_1 t) scM0 (Memref.isWhole_whole _) ((hcond0_0 t).mpr h0) (fun h => h1 ((hcond0_1 t).mp h)) (iblk0 V c 0 t)
        isplitl [Hr]; · iexact Hr
        iexact Hg
      isplitl [Ho]; · iexact Ho
      isplitl [H0]; · iexact H0
      iexists _; iexact H1
    · rw [PhiS0_castSucc V c t, PhiS0_pos V c _ _ hz]
      iintro ⟨⟨HS0, Hr, Hg⟩, Ho, ⟨%d0, H0⟩, ⟨%d1, H1⟩⟩
      iapply ((kernelRun0_A c (grid0.coords t) (ms0_0 t) (hs0_0 t) (ms0_1 t) (hs0_1 t) scM0 (Memref.isWhole_whole _) ((hcond0_0 t).mpr h0) (fun h => h1 ((hcond0_1 t).mp h)) (iblk0 V c 0 t)).2 _ Set.univ _)
      isplitl [H0]; · iexact H0
      isplitl [H1]; · iexact H1
      isplitl [HS0]; · iexists _; iexact HS0
      iintro ⟨H0, H1, ⟨%es0, HS0⟩⟩
      isplitl [HS0 Hr Hg]
      · isplitl [HS0]
        · unfold owns; iexists _; isplitr
          swap; · iexact HS0
          ipureintro
          rw [View.read_writes_eq_canon _ _ _ (scover0_A c (grid0.coords t) (ms0_0 t) (hs0_0 t) (ms0_1 t) (hs0_1 t) scM0 (Memref.isWhole_whole _) ((hcond0_0 t).mpr h0) (fun h => h1 ((hcond0_1 t).mp h)) (iblk0 V c 0 t))]
          exact canon0_A c (grid0.coords t) (ms0_0 t) (hs0_0 t) (ms0_1 t) (hs0_1 t) scM0 (Memref.isWhole_whole _) ((hcond0_0 t).mpr h0) (fun h => h1 ((hcond0_1 t).mp h)) (iblk0 V c 0 t)
        isplitl [Hr]; · iexact Hr
        iexact Hg
      isplitl [Ho]; · iexact Ho
      isplitl [H0]; · iexact H0
      iexists _; iexact H1
  · have h1 : t.val % 2 = 1 := by omega
    have hz : t.val ≠ 0 := by omega
    have hlt : t.val - 1 < cfg0.N := Nat.lt_of_le_of_lt (Nat.sub_le _ _) t.isLt
    have hprev : acc0 V c ⟨t.val - 1, hlt⟩ = k0_pay2 (iblk0 V c 0 ⟨t.val - 1, hlt⟩) (k0_pay1 (F := F)) :=
      acc0_even V c ⟨t.val - 1, hlt⟩ (by show (t.val - 1) % 2 = 0; omega)
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1_B t (fun h => h0 ((hcond0_0 t).mp h)) ((hcond0_1 t).mpr h1)], after0_1]
    unfold out0
    rw [acc0_odd V c t h0]
    rw [PhiS0_castSucc V c t, PhiS0_pos V c _ _ hz, hprev]
    iintro ⟨⟨HS0, Hr, Hg⟩, Ho, ⟨%d0, H0⟩, ⟨%d1, H1⟩⟩
    iapply ((kernelRun0_B c (grid0.coords t) (ms0_0 t) (hs0_0 t) (ms0_1 t) (hs0_1 t) scM0 (Memref.isWhole_whole _) (fun h => h0 ((hcond0_0 t).mp h)) ((hcond0_1 t).mpr h1) (iblk0 V c 0 t) (k0_pay2 (iblk0 V c 0 ⟨t.val - 1, hlt⟩) (k0_pay1 (F := F)))).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hr Hg]
    · isplitl [HS0]
      · unfold owns; iexists _; isplitr
        swap; · iexact HS0
        ipureintro
        rw [View.read_writes_eq_canon _ _ _ (scover0_B c (grid0.coords t) (ms0_0 t) (hs0_0 t) (ms0_1 t) (hs0_1 t) scM0 (Memref.isWhole_whole _) (fun h => h0 ((hcond0_0 t).mp h)) ((hcond0_1 t).mpr h1) (iblk0 V c 0 t) (k0_pay2 (iblk0 V c 0 ⟨t.val - 1, hlt⟩) (k0_pay1 (F := F))))]
        exact canon0_B_S c (grid0.coords t) (ms0_0 t) (hs0_0 t) (ms0_1 t) (hs0_1 t) scM0 (Memref.isWhole_whole _) (fun h => h0 ((hcond0_0 t).mp h)) ((hcond0_1 t).mpr h1) (iblk0 V c 0 t) (k0_pay2 (iblk0 V c 0 ⟨t.val - 1, hlt⟩) (k0_pay1 (F := F)))
      isplitl [Hr]; · iexact Hr
      iexact Hg
    isplitl [Ho]; · iexact Ho
    isplitl [H0]; · iexact H0
    unfold owns; iexists _; isplitr
    swap; · iexact H1
    ipureintro
    rw [View.read_writes_eq_canon _ _ _ (cover0_B_1 c (grid0.coords t) (ms0_0 t) (hs0_0 t) (ms0_1 t) (hs0_1 t) scM0 (Memref.isWhole_whole _) (fun h => h0 ((hcond0_0 t).mp h)) ((hcond0_1 t).mpr h1) (iblk0 V c 0 t) (k0_pay2 (iblk0 V c 0 ⟨t.val - 1, hlt⟩) (k0_pay1 (F := F))))]
    exact canon0_B_1 c (grid0.coords t) (ms0_0 t) (hs0_0 t) (ms0_1 t) (hs0_1 t) scM0 (Memref.isWhole_whole _) (fun h => h0 ((hcond0_0 t).mp h)) ((hcond0_1 t).mpr h1) (iblk0 V c 0 t) (k0_pay2 (iblk0 V c 0 ⟨t.val - 1, hlt⟩) (k0_pay1 (F := F)))

/-- What the launch hands region 0 is its invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class invariant back: the accumulator's named contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 16 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨HS0, Hr, Hg⟩
  isplitl [HS0 Hr]
  · isplitl [HS0]
    · iexists _; iexact HS0
    iexact Hr
  iexact Hg

/-- The body obligation of region 0, at every point. -/
theorem body_obligation0 (c : Dev nD) : BodyObligation (dat0 (F := F) V c) (defs₀ (F := F)) Variants.none () Set.univ := by
  intro t
  rw [bigSep_W0, bigSep_W0]
  exact sound_body V c t

end Cert.KernelIdeal.Hand

end
-- ==== Proof.KI.Region1.lean ====
/-
  Region 1's body, point by point: at every grid point the kernel body loads batch t's 16×256×256 block and its 16
  scales, and stores their product (the scales broadcast over each plane) into the output block; the inputs' buffers
  are left as found and the invariant (the scoped buffers that are no staging buffer of this region, the generator
  register) passes through unread.
-/
import proofs.«126365_j48490180772307_1_alg».proof.Proof.KI.Dats
import Idealize.ShloMosaic.Lib.Pipeline.Value
import Idealize.ShloMosaic.Lib.Ring

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' current buffers -/

/-- Input window 0 (the big array) is uncut and never idle, so its current staging buffer holds batch `t`'s block at
    every point, fetched there or not: unfetched, the block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1 (the scales) likewise holds batch `t`'s 16 scales at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body's accesses -/

/-- A whole-buffer rectangle's offsets are zero. -/
theorem hz1 : (![0, 0, 0, 0] : Fin 4 → Nat) = fun _ => 0 := funext fun a => by fin_cases a <;> rfl

/-- The whole 1×16×256×256 block. -/
abbrev r1_0 : Rect S1x16x256x256 := Rect.unit (s := S1x16x256x256) ![0, 0, 0, 0] S1x16x256x256.size inb_S1x16x256x256_S1x16x256x256_0_0_0_0
/-- The whole 1×16×1×1 block of scales. -/
abbrev r1_1 : Rect S1x16x1x1 := Rect.unit (s := S1x16x1x1) ![0, 0, 0, 0] S1x16x1x1.size inb_S1x16x1x1_S1x16x1x1_0_0_0_0

/-- The one store is through the whole block, so it covers it. -/
theorem cover1_2 (p0 : Vec F S1x16x256x256 .f32) (y : S1x16x256x256.Idx) :
    ∃ pc ∈ ([⟨r1_0, p0⟩] : List (View.Piece (Elt F) S1x16x256x256 .f32)), y ∈ pc.1.set :=
  ⟨_, List.mem_singleton_self _, View.mem_set_unit_zero (S := S1x16x256x256) hz1 inb_S1x16x256x256_S1x16x256x256_0_0_0_0 y⟩

/-- What the one whole-block store leaves, read back, is its payload on the whole-block loads' values: the product
    of the block and its scales. -/
theorem out1_eq (x0 : Vec F S1x16x256x256 .f32) (x1 : Vec F S1x16x1x1 .f32) :
    View.canon [(⟨r1_0, k1_pay1 (View.ld x0 r1_0) (View.ld x1 r1_1)⟩ : View.Piece (Elt F) S1x16x256x256 .f32)] = k1_pay1 x0 x1 := by
  rw [View.canon_unit_zero (S := S1x16x256x256) hz1 inb_S1x16x256x256_S1x16x256x256_0_0_0_0,
    View.ld_unit_zero (S := S1x16x256x256) hz1 inb_S1x16x256x256_S1x16x256x256_0_0_0_0 x0,
    View.ld_unit_zero (S := S1x16x1x1) hz1 inb_S1x16x1x1_S1x16x1x1_0_0_0_0 x1]

/-! ## The body's triple -/

set_option maxHeartbeats 1000000 in
/-- The kernel body on whole staging memrefs, the inputs' at contents `x0`, `x1` and the output's at anything, runs
    to the continuation holding the inputs' as they were and the output's at the product of `x0` and `x1`. -/
theorem sound_kernel1 (c : Dev nD) (E : Set ℕ) (i : grid1.Coords)
    (arg1 : Memref sig .tc .vmem S1x16x256x256 .f32) (harg1 : arg1.IsWhole)
    (arg2 : Memref sig .tc .vmem S1x16x1x1 .f32) (harg2 : arg2.IsWhole)
    (arg3 : Memref sig .tc .vmem S1x16x256x256 .f32) (harg3 : arg3.IsWhole)
    (x0 : Vec F S1x16x256x256 .f32) (x1 : Vec F S1x16x1x1 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1_mul_kernel i arg1 harg1 arg2 harg2 arg3 harg3) K := by
  simp only [cc1_mul_kernel_eq_skeleton]; unfold cc1_mul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ (cover1_2 _)).trans (out1_eq _ _)

/-! ## The body obligation, at a generic point -/

/-- What the body is called with at point `t`: the invariant, what the core owes, and each window's current buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold batch `t`'s block and scales, so the kernel's triple applies at
    them; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold out1
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.ValueCond.lean ====
/-
  The launch of the two-region program with its RESULT read back: the statement of the conditional frame of this
  program (every argument array ends as launched, given one segment record per kernel region pinned to the thread states
  "every unscoped buffer at the valuation before / after the item, beside a rest") with one more conjunct, the result
  array `main_v21` at what region 1 is said to leave there. The valuations, the host stretches as segments and the
  segment list are the conditional frame's own; only the last valuation is read at one more buffer.
-/
import proofs.«126365_j48490180772307_1_alg».proof.Proof.Gen.KernelIdeal.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ) (outs : Outs (F := F))

/-- The last valuation at the result array: what region 1 leaves there. -/
theorem V5_main_v21 (c : Dev nD) : V5 m outs c main_v21 = outs 5 main_v21 c := by
  simp only [V5, Function.update_self]

-- `θ_run_regions_kit_dev`'s implicit arguments are found by unifying its conclusion with this one, which takes unfolding
-- plain definitions in a metavariable's type
set_option backward.isDefEq.respectTransparency.types false in
/-- The conditional run with the result named. Under the hypotheses of the conditional frame — per region a segment
    record entered from the thread state before it and left at the one after it — every weakly fair execution of @main
    from memory `m` with zero counters terminates, every final memory holds each argument as launched, and the result
    array holds what region 1 is said to leave in it (`outs 5 main_v21`): the last valuation is an update at that array,
    read at the updated point. -/
theorem value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c)) :
    θ_run defs (onTc (τ := τ) (main (F := F))) ⟨m, fun _ => 0, ρ⟩ (fun r => ∀ c : Dev nD,
      r.2.mem ((c.tc : Thread nD τ).loc main_v21) = outs 5 main_v21 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨hpre0 c, hpost0 c, .rfl, .rfl, hpre1 c, (hpost1 c).trans (sep_mono .rfl (hE2 c))⟩)
    (hinit := ?_) (QY := fun c s => s.mem ((c.tc : Thread nD τ).loc main_v21) = outs 5 main_v21 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact ⟨(h (Proc.devRef .tc main_v21) (Finset.mem_filter.mpr ⟨StableHlo.devRef_mem_tcRefs main_v21, by decide⟩)).trans (V5_main_v21 m outs c),
        (h (Proc.devRef .tc main_arg0) (Finset.mem_filter.mpr ⟨StableHlo.devRef_mem_tcRefs main_arg0, by decide⟩)).trans (V5_main_arg0 m outs c),
        (h (Proc.devRef .tc main_arg1) (Finset.mem_filter.mpr ⟨StableHlo.devRef_mem_tcRefs main_arg1, by decide⟩)).trans (V5_main_arg1 m outs c),
        (h (Proc.devRef .tc main_arg2) (Finset.mem_filter.mpr ⟨StableHlo.devRef_mem_tcRefs main_arg2, by decide⟩)).trans (V5_main_arg2 m outs c),
        (h (Proc.devRef .tc main_arg3) (Finset.mem_filter.mpr ⟨StableHlo.devRef_mem_tcRefs main_arg3, by decide⟩)).trans (V5_main_arg3 m outs c),
        (h (Proc.devRef .tc main_arg4) (Finset.mem_filter.mpr ⟨StableHlo.devRef_mem_tcRefs main_arg4, by decide⟩)).trans (V5_main_arg4 m outs c)⟩
    · iexact HSI

end Cert.KernelIdeal.Hand

end
-- ==== Proof.KI.Segs.lean ====
/-
  @main as segments. The program is: region 0 (the plane sums), three stretches of host operations (the small
  two-layer network with its truncating cast, ending in the scales reshaped to 64×16×1×1), region 1 (the scaled planes).
  Between two items a core holds every unscoped buffer at a valuation: the launch memory; then region 0's output
  array at what its write-backs leave; then each host stretch applied; then region 1's output array at what its
  write-backs leave. Each region is a segment record around those thread states: its arrays are split out of the
  unscoped buffers at entry and put back at their final contents at exit, the generator register goes into the region's
  invariant and comes back, nothing is owed, and the kernels have no semaphore of their own.
-/
import proofs.«126365_j48490180772307_1_alg».proof.Proof.KI.Region0
import proofs.«126365_j48490180772307_1_alg».proof.Proof.KI.Region1
import proofs.«126365_j48490180772307_1_alg».proof.Proof.KI.ValueCond
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the regions are entered from and leave -/

/-- Region 0 is entered from the launch memory. -/
abbrev Ve0 : (c : Dev nD) → (b : Ref sig .tc) → Buf (Elt F) ((c : Thread nD τ).loc b) := fun c b => Gen.V0 m c b

/-- What region 0 leaves: its arrays at what its write-backs leave, every other buffer as launched. -/
def outsA : Gen.Outs (F := F) := fun _ r c =>
  Pipeline.withArrays spec0 c (Gen.V0 m c) (fun w => (dat0 (Ve0 m) c).arrAt w cfg0.N) (Proc.devRef .tc r)

/-- Region 1 is entered from the launch memory with region 0's output written and the three host stretches applied. -/
abbrev Ve1 : (c : Dev nD) → (b : Ref sig .tc) → Buf (Elt F) ((c : Thread nD τ).loc b) := fun c b => Gen.V4 m (outsA m) c b

/-- What the two regions leave: region 0's as above; region 1's arrays at what its write-backs leave. -/
def outs : Gen.Outs (F := F) := fun j r c => match j with
  | 5 => Pipeline.withArrays spec1 c (Gen.V4 m (outsA m) c) (fun w => (dat1 (Ve1 m) c).arrAt w cfg1.N) (Proc.devRef .tc r)
  | _ => outsA m 1 r c

theorem outs_one (c : Dev nD) : outs m 1 main_v0 c = (dat0 (Ve0 m) c).arrAt 1 cfg0.N := by
  show Pipeline.withArrays spec0 c (Gen.V0 m c) (fun w => (dat0 (Ve0 m) c).arrAt w cfg0.N) (Proc.devRef .tc (Pipeline.arrRef spec0 1)) = _
  exact Pipeline.withArrays_arr spec0 Gen.launch0.win.arr_inj c _ _ 1

theorem outs_five (c : Dev nD) : outs m 5 main_v21 c = (dat1 (Ve1 m) c).arrAt 2 cfg1.N := by
  show Pipeline.withArrays spec1 c (Gen.V4 m (outsA m) c) (fun w => (dat1 (Ve1 m) c).arrAt w cfg1.N) (Proc.devRef .tc (Pipeline.arrRef spec1 2)) = _
  exact Pipeline.withArrays_arr spec1 Gen.launch1.win.arr_inj c _ _ 2

/-- Region 1's entry valuation reads region 0's leavings only. -/
theorem V4_outs (c : Dev nD) : Gen.V4 m (outs m) c = Gen.V4 m (outsA m) c := rfl

/-! ## The proof data family and what rides beside the buffers -/

def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every item: the generator register at some state, and nothing owed. -/
abbrev R (c : Dev nD) : sProp 𝕄 := iprop((∃ r, prngReg c r) ∗ ∃ W, owes (c : Thread nD τ) (0 : CellTallies nD τ sig Unit) W)

/-! ## Region 0's exit: its arrays make the next valuation -/

theorem hF0 (c : Dev nD) (w : Fin cfg0.W) : (dat0 (Ve0 m) c).arrAt w cfg0.N = Gen.V1 m (outs m) c (Pipeline.arrRef spec0 w) := by
  match w with
  | ⟨0, _⟩ =>
    exact ((dat0 (Ve0 m) c).arrAt_in 0 rfl _).trans ((A_eq0 (Ve0 m) c 0).trans (Gen.V1_of m (outs m) c main_arg0 (by decide)).symm)
  | ⟨1, _⟩ =>
    exact (outs_one m c).symm.trans (by simp only [Gen.V1, Function.update_self])

theorem hrest0 (c : Dev nD) : ∀ b : Ref sig .tc, b ∉ Finset.univ.image (Pipeline.arrRef spec0) → Gen.V1 m (outs m) c b = Ve0 m c b :=
  fun b hb => Gen.V1_of m (outs m) c b (by
    intro hmem
    simp only [List.mem_singleton] at hmem
    exact hb (Finset.mem_image.mpr ⟨1, Finset.mem_univ _, hmem.symm⟩))

/-! ## Region 1's exit -/

theorem hF1 (c : Dev nD) (w : Fin cfg1.W) : (dat1 (Ve1 m) c).arrAt w cfg1.N = Gen.V5 m (outs m) c (Pipeline.arrRef spec1 w) := by
  match w with
  | ⟨0, _⟩ =>
    exact ((dat1 (Ve1 m) c).arrAt_in 0 rfl _).trans ((A_eq1 (Ve1 m) c 0).trans (Gen.V5_of m (outs m) c main_arg0 (by decide)).symm)
  | ⟨1, _⟩ =>
    exact ((dat1 (Ve1 m) c).arrAt_in 1 rfl _).trans ((A_eq1 (Ve1 m) c 1).trans (Gen.V5_of m (outs m) c main_v20 (by decide)).symm)
  | ⟨2, _⟩ =>
    exact (outs_five m c).symm.trans (V5_main_v21 m (outs m) c).symm

theorem hrest1 (c : Dev nD) : ∀ b : Ref sig .tc, b ∉ Finset.univ.image (Pipeline.arrRef spec1) → Gen.V5 m (outs m) c b = Ve1 m c b :=
  fun b hb => Gen.V5_of m (outs m) c b (by
    intro hmem
    simp only [List.mem_singleton] at hmem
    exact hb (Finset.mem_image.mpr ⟨2, Finset.mem_univ _, hmem.symm⟩))

/-! ## The regions as segments -/

set_option backward.isDefEq.respectTransparency.types false in
/-- Region 0 over the thread states: entered from every unscoped buffer as launched, left with its output array at what
    its write-backs leave. -/
def reg0 : Pipeline.RegionSeg (pcfgs (F := F)) Gen.adm (pdats m) () defs₀ 𝒱₀ L lv 0 where
  win := Gen.launch0.win.to₀
  block_pos := Gen.launch0.block_pos
  stage_whole := Gen.launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) Gen.adm (pdats m) Gen.launch0.win Gen.launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ve0 m) c)
    unfold Pipeline.ΦA
    iintro ⟨Hp, -, Hr⟩
    isplitl [Hr]; · iexact Hr
    iexact Hp
  hout c := by
    rw [Pipeline.ownSems0_none]
    refine (hout0 (Ve0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      Gen.launch0.win Gen.launch0.arr_whole c (pdats m) ((pdats m 0 c).share_full fun _ => rfl)
      (Ve0 m c) (fun b => Gen.V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread states: entered from the valuation after the host stretches, left with the result array at
    what its write-backs leave. -/
def reg1 : Pipeline.RegionSeg (pcfgs (F := F)) Gen.adm (pdats m) () defs₀ 𝒱₀ L lv 1 where
  win := Gen.launch1.win.to₀
  block_pos := Gen.launch1.block_pos
  stage_whole := Gen.launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (Gen.V4 m (outsA m) c) ∗ R c)
  post c := iprop(StableHlo.held (c : Thread nD τ) (Pipeline.ucRefs τ sig) (Gen.V5 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) Gen.adm (pdats m) Gen.launch1.win Gen.launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      Gen.launch1.win Gen.launch1.arr_whole c (pdats m) ((pdats m 1 c).share_full fun _ => rfl)
      (Ve1 m c) (fun b => Gen.V5 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element yields the pipelines' ghost state and nothing else. -/
theorem hu₀ : (ownU (initOf (Pipeline.cells cfgs Gen.cellOf_inj) (Pipeline.launchToks cfgs Gen.cellOf_inj)) : sProp 𝕄)
    ⊢ |={Set.univ}=> iprop(BI.own ((emb₁ : Emb _ 𝕄) (initOf (Pipeline.cells cfgs Gen.cellOf_inj) (Pipeline.launchToks cfgs Gen.cellOf_inj))) ∗ bigSep Finset.univ (fun _ : Dev nD => (BI.emp : sProp 𝕄))) := by
  iintro Hu; imodintro
  isplitl [Hu]
  · iapply (show (ownU (initOf (Pipeline.cells cfgs Gen.cellOf_inj) (Pipeline.launchToks cfgs Gen.cellOf_inj)) : sProp 𝕄)
        ⊢ BI.own (emb₁ (initOf (Pipeline.cells cfgs Gen.cellOf_inj) (Pipeline.launchToks cfgs Gen.cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the rest that rides beside the buffers. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME at any `F`: every weakly fair execution of @main terminates, nothing faulting, and every argument array ends
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m (emb₁ : Emb _ 𝕄) () 𝒱₀ L lv (fun _ _ => rfl) ρ (outs m) (pdats m) (0 : Dev nD → CellTallies nD τ sig Unit)
    (fun _ => (BI.emp : sProp 𝕄)) _ (hu₀ (F := F)) (fun _ c => R (F := F) c) (hE0 ρ)
    (fun c => by iintro ⟨-, H⟩; iexact H)
    (reg0 m) (fun c => .rfl) (fun c => .rfl) (reg1 m) (fun c => .rfl) (fun c => .rfl)

set_option backward.isDefEq.respectTransparency.types false in
/-- THE RUN WITH THE RESULT NAMED, at any `F`: the same, and the result array ends at what region 1's write-backs leave. -/
theorem run_value : θ_run defs (onTc (τ := τ) (main (F := F))) ⟨m, fun _ => 0, ρ⟩ (fun r => ∀ c : Dev nD,
      r.2.mem ((c.tc : Thread nD τ).loc main_v21) = (dat1 (Ve1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (outs_five m c), (h c).2⟩)
    (value_cond m (emb₁ : Emb _ 𝕄) () 𝒱₀ L lv (fun _ _ => rfl) ρ (outs m) (pdats m) (0 : Dev nD → CellTallies nD τ sig Unit)
      (fun _ => (BI.emp : sProp 𝕄)) _ (hu₀ (F := F)) (fun _ c => R (F := F) c) (hE0 ρ)
      (fun c => by iintro ⟨-, H⟩; iexact H)
      (reg0 m) (fun c => .rfl) (fun c => .rfl) (reg1 m) (fun c => .rfl) (fun c => .rfl))

end Cert.KernelIdeal.Hand

end
-- ==== Proof.KI.Spec.lean ====
/-
  The mathematics the two programs share, over literal shapes and the extended reals.

  `planeSum X j` is the sum of plane `(b, h) = (j 0, j 1)` of a 64×16×256×256 array taken as the kernel takes it: the
  left 128 columns of every row, then the right 128 columns, the two halves added; times 2⁻¹⁶. The reference takes the
  whole plane in one sum and divides by 2¹⁶. On the extended reals addition is commutative and associative and division
  by a nonzero real is multiplication by its inverse, at infinities too, so the two agree with no finiteness assumption.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev SBig : Shape := ⟨4, ![64, 16, 256, 256]⟩
abbrev SGap : Shape := ⟨2, ![64, 16]⟩

/-- The left half of plane `j`: rows 0..255, columns 0..127. -/
def halfL (X : SBig.Idx → EReal) (j : SGap.Idx) : EReal :=
  ∑ r : Fin 256, ∑ l : Fin 128, X (ix4 (j 0) (j 1) r (Fin.castAdd 128 l))

/-- The right half of plane `j`: rows 0..255, columns 128..255. -/
def halfR (X : SBig.Idx → EReal) (j : SGap.Idx) : EReal :=
  ∑ r : Fin 256, ∑ l : Fin 128, X (ix4 (j 0) (j 1) r (Fin.natAdd 128 l))

/-- The plane mean as the kernel computes it: the two halves added, times the word for 2⁻¹⁶. -/
def planeSum (X : SBig.Idx → EReal) (j : SGap.Idx) : EReal :=
  (halfL X j + halfR X j) * Ideal.ofBits .f32 0x37800000#32

/-- The whole plane in one double sum. -/
def planeAll (X : SBig.Idx → EReal) (j : SGap.Idx) : EReal :=
  ∑ r : Fin 256, ∑ l : Fin 256, X (ix4 (j 0) (j 1) r l)

/-- A row of 256 columns is its left 128 plus its right 128; summed over the rows, the plane is its two halves. -/
theorem planeAll_eq_halves (X : SBig.Idx → EReal) (j : SGap.Idx) : planeAll X j = halfL X j + halfR X j := by
  unfold planeAll halfL halfR
  rw [← Finset.sum_add_distrib]
  refine Finset.sum_congr rfl fun r _ => ?_
  exact Fin.sum_univ_add (fun l : Fin (128 + 128) => X (ix4 (j 0) (j 1) r l))

end Cert.Spec

end
-- ==== Proof.KI.Value0.lean ====
/-
  Region 0's output array in closed form, at the ideal instance: after the run, entry (b, h) of the 64×16 array of
  plane means is the plane sum of the big array's plane (b, h) — its left 128 columns and its right 128 columns, each
  summed over lanes and then rows, added, times 2⁻¹⁶. Batch group g = b / 8 is written back once, at the odd point
  2g + 1, from the accumulator that the even point 2g started from zero.
-/
import proofs.«126365_j48490180772307_1_alg».proof.Proof.KI.Dats
import proofs.«126365_j48490180772307_1_alg».proof.Proof.KI.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-! ## The payloads at an index -/

/-- The index over `(p, q, r)` with lane `l` inserted on the last axis. -/
theorem lift3 (h : S8x16x256x128.Reduces [3] S8x16x256) (p : Fin 8) (q : Fin 16) (r : Fin 256) (l : Fin 128) :
    h.lift (ix3 p q r) l = ix4 p q r l := by
  funext c; apply Fin.ext
  match c with
  | ⟨0, _⟩ => rfl
  | ⟨1, _⟩ => rfl
  | ⟨2, _⟩ => rfl
  | ⟨3, _⟩ => rfl

/-- The index over `(p, q)` with row `r` inserted on the last axis. -/
theorem lift2 (h : S8x16x256.Reduces [2] S8x16) (p : Fin 8) (q : Fin 16) (r : Fin 256) :
    h.lift (ix2 p q) r = ix3 p q r := by
  funext c; apply Fin.ext
  match c with
  | ⟨0, _⟩ => rfl
  | ⟨1, _⟩ => rfl
  | ⟨2, _⟩ => rfl

/-- The reset's block is zero everywhere. -/
theorem reset_apply (p : Fin 8) (q : Fin 16) : (k0_pay1 (F := Ideal)) (ix2 p q) = 0 := by
  unfold k0_pay1
  rw [shapeCast_self]
  exact Ideal.ofBits_zero_f32

/-- The update at `(p, q)`: what the accumulator held plus the block's plane sum, lanes then rows. -/
theorem update_apply (x : Vec Ideal S8x16x256x128 .f32) (a : Vec Ideal S8x16 .f32) (p : Fin 8) (q : Fin 16) :
    k0_pay2 x a (ix2 p q) = a (ix2 p q) + ∑ r : Fin 256, ∑ l : Fin 128, x (ix4 p q r l) := by
  unfold k0_pay2
  rw [shapeCast_self]
  refine congrArg (fun z : EReal => a (ix2 p q) + z) ?_
  refine (Ideal.multiReduction_add_single _ _ reduces_S8x16x256_S8x16 _ _ (ix2 p q)).trans ?_
  refine Finset.sum_congr rfl fun (r : Fin 256) _ => ?_
  rw [show reduces_S8x16x256_S8x16.lift (ix2 p q) r = ix3 p q r from lift2 _ p q r]
  refine (Ideal.multiReduction_add_single x _ reduces_S8x16x256x128_S8x16x256 _ _ (ix3 p q r)).trans ?_
  refine Finset.sum_congr rfl fun (l : Fin 128) _ => ?_
  rw [show reduces_S8x16x256x128_S8x16x256.lift (ix3 p q r) l = ix4 p q r l from lift3 _ p q r l]

/-- The output at `(p, q)`: the accumulator times the constant. -/
theorem scaled_apply (a : Vec Ideal S8x16 .f32) (p : Fin 8) (q : Fin 16) :
    k0_pay3 a (ix2 p q) = a (ix2 p q) * Ideal.ofBits .f32 0x37800000#32 := rfl

/-! ## The index maps over the grid -/

/-- Point `t` is tile `t % 2` of group `t / 2`: the input's block index is (group, 0, 0, tile), the output's (group, 0). -/
theorem idx_facts0 : ∀ t : Fin cfg0.N, win0_0.index t (0 : Fin 4) = t.val / 2
    ∧ win0_0.index t (1 : Fin 4) = 0
    ∧ win0_0.index t (2 : Fin 4) = 0
    ∧ win0_0.index t (3 : Fin 4) = t.val % 2
    ∧ win0_1.index t (0 : Fin 2) = t.val / 2
    ∧ win0_1.index t (1 : Fin 2) = 0 :=
  (by decide +kernel : ∀ t : Fin grid0.N, _)

/-- The input window's block at point `t`, at `x`, is the array at rows `8 (t / 2) + x₀` and columns `128 (t % 2) + x₃`. -/
theorem iblk0_apply (c : Dev nD) (t : Fin cfg0.N) (x : S8x16x256x128.Idx) (k : S64x16x256x256.Idx)
    (hk0 : (k 0).val = 8 * (t.val / 2) + (x 0).val) (hk1 : (k 1).val = (x 1).val) (hk2 : (k 2).val = (x 2).val)
    (hk3 : (k 3).val = 128 * (t.val % 2) + (x 3).val) :
    (iblk0 V c 0 t : Vec Ideal S8x16x256x128 .f32) x = (V c main_arg0 : S64x16x256x256.Idx → EReal) k := by
  obtain ⟨e0, e1, e2, e3, -, -⟩ := idx_facts0 t
  unfold iblk0
  rw [View.read_apply]
  show V c main_arg0 _ = V c main_arg0 _
  congr 1
  funext a
  apply Fin.ext
  match a with
  | ⟨0, _⟩ => show win0_0.index t (0 : Fin 4) * 8 + 1 * (x 0).val = (k 0).val; rw [e0, hk0]; omega
  | ⟨1, _⟩ => show win0_0.index t (1 : Fin 4) * 16 + 1 * (x 1).val = (k 1).val; rw [e1, hk1]; omega
  | ⟨2, _⟩ => show win0_0.index t (2 : Fin 4) * 256 + 1 * (x 2).val = (k 2).val; rw [e2, hk2]; omega
  | ⟨3, _⟩ => show win0_0.index t (3 : Fin 4) * 128 + 1 * (x 3).val = (k 3).val; rw [e3, hk3]; omega

/-- What an odd point stores into the output block, at `(p, q)`, from the even point's block `x0` and its own `x1`:
    zero plus the two plane sums, times the constant. -/
theorem out_apply (x0 x1 : Vec Ideal S8x16x256x128 .f32) (p : Fin 8) (q : Fin 16) :
    k0_pay3 (k0_pay2 x1 (k0_pay2 x0 (k0_pay1 (F := Ideal)))) (ix2 p q)
      = ((∑ r : Fin 256, ∑ l : Fin 128, x0 (ix4 p q r l)) + ∑ r : Fin 256, ∑ l : Fin 128, x1 (ix4 p q r l)) * Ideal.ofBits .f32 0x37800000#32 := by
  rw [scaled_apply, update_apply, update_apply, reset_apply, zero_add]

/-! ## From the blocks to the array -/

/-- An odd point writes back rows 8g..8g+7 of the plane sums of the array the region read, g its batch group. -/
theorem flushed0_eq (c : Dev nD) (X : S64x16x256x256.Idx → EReal) (hX : V c main_arg0 = X) (t : Fin cfg0.N)
    (hf : (cfg0.win 1).flush t = true) :
    (dat0 (F := Ideal) V c).flushed 1 t = ((cfg0.win 1).blk t).view.read (Elt Ideal) (Cert.Spec.planeSum X) := by
  have h1 : t.val % 2 = 1 := (flush0_1 t).mp hf
  have h0 : ¬t.val % 2 = 0 := by omega
  have hlt : t.val - 1 < cfg0.N := Nat.lt_of_le_of_lt (Nat.sub_le _ _) t.isLt
  show (cfg0.win 1).cut (grid0.coords t) ((dat0 (F := Ideal) V c).after 1 t) = _
  rw [after0_1]
  unfold out0 acc0
  rw [dif_neg h0]
  obtain ⟨-, -, -, -, e4, e5⟩ := idx_facts0 t
  refine funext fun (j : S8x16.Idx) => ?_
  obtain ⟨p, q, rfl⟩ : ∃ (p : Fin 8) (q : Fin 16), j = ix2 p q := ⟨j 0, j 1, eq_ix2 j⟩
  show k0_pay3 (k0_pay2 (iblk0 V c 0 t) (k0_pay2 (iblk0 V c 0 ⟨t.val - 1, hlt⟩) (k0_pay1 (F := Ideal)))) (ix2 p q)
    = Cert.Spec.planeSum X (((cfg0.win 1).blk t).view.emb (ix2 p q))
  have hk0 : ((((cfg0.win 1).blk t).view.emb (ix2 p q) : S64x16.Idx) 0).val = 8 * (t.val / 2) + p.val := by
    show win0_1.index t (0 : Fin 2) * 8 + 1 * p.val = _; rw [e4]; omega
  have hk1 : ((((cfg0.win 1).blk t).view.emb (ix2 p q) : S64x16.Idx) 1).val = q.val := by
    show win0_1.index t (1 : Fin 2) * 16 + 1 * q.val = _; rw [e5]; omega
  rw [out_apply]
  unfold Cert.Spec.planeSum Cert.Spec.halfL Cert.Spec.halfR
  subst hX
  refine congrArg (fun z : EReal => z * Ideal.ofBits .f32 0x37800000#32) ?_
  refine congrArg₂ (fun y z : EReal => y + z) ?_ ?_
  · refine Finset.sum_congr rfl fun (r : Fin 256) _ => Finset.sum_congr rfl fun (l : Fin 128) _ => ?_
    refine iblk0_apply V c ⟨t.val - 1, hlt⟩ (ix4 p q r l) _ ?_ ?_ ?_ ?_
    · show ((((cfg0.win 1).blk t).view.emb (ix2 p q) : S64x16.Idx) 0).val = 8 * ((t.val - 1) / 2) + p.val
      rw [hk0]; omega
    · exact hk1
    · rfl
    · show l.val = 128 * ((t.val - 1) % 2) + l.val
      omega
  · refine Finset.sum_congr rfl fun (r : Fin 256) _ => Finset.sum_congr rfl fun (l : Fin 128) _ => ?_
    refine iblk0_apply V c t (ix4 p q r l) _ ?_ ?_ ?_ ?_
    · exact hk0
    · exact hk1
    · rfl
    · show 128 + l.val = 128 * (t.val % 2) + l.val
      omega

/-- Entry (b, h) of the output array belongs to point `t`'s block exactly when b is one of the 8 rows of `t`'s batch group. -/
theorem mem_blk0 (t : Fin cfg0.N) (i : S64x16.Idx) :
    i ∈ ((cfg0.win 1).blk t).view.set ↔ ∀ a : Fin 2, win0_1.index t a * S8x16.size a ≤ (i a).val ∧ (i a).val < win0_1.index t a * S8x16.size a + S8x16.size a := by
  show i ∈ ((View.whole main_v0).slice (win0_1.rect t)).set ↔ _
  rw [View.set_slice_whole, Rect.mem_set_unit]
  exact Iff.rfl

/-- Every entry `(b, h)` of the output array lies in the block of a flushing point: the odd point of group `b / 8`. -/
theorem cover0 (i : S64x16.Idx) : ∃ t : Fin cfg0.N, (cfg0.win 1).flush t = true ∧ i ∈ ((cfg0.win 1).blk t).view.set := by
  have hi0 : (i 0).val < 64 := (i 0).isLt
  have hi1 : (i 1).val < 16 := (i 1).isLt
  have hN : cfg0.N = 16 := N_0
  have htl : 2 * ((i 0).val / 8) + 1 < cfg0.N := by omega
  obtain ⟨-, -, -, -, e4, e5⟩ := idx_facts0 ⟨2 * ((i 0).val / 8) + 1, htl⟩
  refine ⟨⟨2 * ((i 0).val / 8) + 1, htl⟩, (flush0_1 _).mpr (by show (2 * ((i 0).val / 8) + 1) % 2 = 1; omega), ?_⟩
  rw [mem_blk0]
  intro a
  match a with
  | ⟨0, _⟩ =>
    show win0_1.index ⟨2 * ((i 0).val / 8) + 1, htl⟩ (0 : Fin 2) * 8 ≤ (i 0).val ∧ (i 0).val < win0_1.index ⟨2 * ((i 0).val / 8) + 1, htl⟩ (0 : Fin 2) * 8 + 8
    rw [e4]; show (2 * ((i 0).val / 8) + 1) / 2 * 8 ≤ (i 0).val ∧ (i 0).val < (2 * ((i 0).val / 8) + 1) / 2 * 8 + 8
    omega
  | ⟨1, _⟩ =>
    show win0_1.index ⟨2 * ((i 0).val / 8) + 1, htl⟩ (1 : Fin 2) * 16 ≤ (i 1).val ∧ (i 1).val < win0_1.index ⟨2 * ((i 0).val / 8) + 1, htl⟩ (1 : Fin 2) * 16 + 16
    rw [e5]; omega

/-- Region 0's output array after the run is the plane sums of the array it read. -/
theorem final0 (c : Dev nD) (X : S64x16x256x256.Idx → EReal) (hX : V c main_arg0 = X) :
    ((dat0 (F := Ideal) V c).arrAt 1 cfg0.N : S64x16.Idx → EReal) = Cert.Spec.planeSum X := by
  exact (dat0 (F := Ideal) V c).arrAt_eq_of_cover 1 (Cert.Spec.planeSum X) (flushed0_eq V c X hX) cover0

end Cert.KernelIdeal.Hand

end
-- ==== Proof.KI.Value1.lean ====
/-
  Region 1's output array in closed form, at the ideal instance: after the run, entry (b, h, r, l) of the result is the
  big array's entry there times the scale of (b, h), read at (b, h, 0, 0) of the 64×16×1×1 array of scales. Batch b is
  written back once, at point b.
-/
import proofs.«126365_j48490180772307_1_alg».proof.Proof.KI.Dats
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-! ## The payload at an index -/

/-- Dropping the leading coordinate of a rank-4 index. -/
theorem tail_ix4 {n0 n1 n2 n3 : Nat} (a : Fin n0) (b : Fin n1) (c : Fin n2) (d : Fin n3) :
    (fun e : Fin 3 => (ix4 a b c d) e.succ) = ix3 b c d := by
  funext e; match e with | ⟨0, _⟩ => rfl | ⟨1, _⟩ => rfl | ⟨2, _⟩ => rfl

/-- Putting the unit coordinate in front of a rank-3 index. -/
theorem cons_ix3 {n1 n2 n3 : Nat} (b : Fin n1) (c : Fin n2) (d : Fin n3) :
    (Fin.cons (⟨0, Nat.one_pos⟩ : Fin 1) (ix3 b c d) : (⟨4, ![1, n1, n2, n3]⟩ : Shape).Idx) = ix4 (0 : Fin 1) b c d := by
  funext e; match e with | ⟨0, _⟩ => rfl | ⟨1, _⟩ => rfl | ⟨2, _⟩ => rfl | ⟨3, _⟩ => rfl

/-- The payload at (0, q, r, l): the block's entry there times the scale of plane q. The two casts drop and add the
    unit axis, the broadcast reads (q, r, l) at (q, 0, 0). -/
theorem pay1_ix (x0 : Vec Ideal S1x16x256x256 .f32) (x1 : Vec Ideal S1x16x1x1 .f32) (q : Fin 16) (r : Fin 256) (l : Fin 256) :
    k1_pay1 x0 x1 (ix4 (0 : Fin 1) q r l) = x0 (ix4 (0 : Fin 1) q r l) * x1 (ix4 (0 : Fin 1) q (0 : Fin 1) (0 : Fin 1)) := by
  unfold k1_pay1
  refine (shapeCast_addUnit_apply ![16, 256, 256] _ shapeCasts_S16x256x256_S1x16x256x256 (ix4 (0 : Fin 1) q r l)).trans ?_
  rw [tail_ix4]
  refine (mulf_apply _ _ (ix3 q r l)).trans ?_
  congr 1
  · refine (shapeCast_dropUnit_apply ![16, 256, 256] x0 shapeCasts_S1x16x256x256_S16x256x256 (ix3 q r l)).trans ?_
    exact congrArg x0 (cons_ix3 q r l)
  · refine (broadcastTo_apply _ broadcasts_S16x1x1_S16x256x256 (ix3 q r l) (ix3 q (0 : Fin 1) (0 : Fin 1)) ?_).trans ?_
    · intro a
      match a with
      | ⟨0, _⟩ => rfl
      | ⟨1, _⟩ => rfl
      | ⟨2, _⟩ => rfl
    · refine (shapeCast_dropUnit_apply ![16, 1, 1] x1 shapeCasts_S1x16x1x1_S16x1x1 (ix3 q (0 : Fin 1) (0 : Fin 1))).trans ?_
      exact congrArg x1 (cons_ix3 q (0 : Fin 1) (0 : Fin 1))

/-- The same at any index of the block. -/
theorem pay1_apply (x0 : Vec Ideal S1x16x256x256 .f32) (x1 : Vec Ideal S1x16x1x1 .f32) (j : S1x16x256x256.Idx) :
    k1_pay1 x0 x1 j = x0 j * x1 (ix4 (0 : Fin 1) (j 1) (0 : Fin 1) (0 : Fin 1)) := by
  obtain ⟨a, q, r, l, rfl⟩ : ∃ (a : Fin 1) (q : Fin 16) (r : Fin 256) (l : Fin 256), j = ix4 a q r l := ⟨_, _, _, _, eq_ix4 j⟩
  obtain rfl : a = 0 := Subsingleton.elim _ _
  exact pay1_ix x0 x1 q r l

/-! ## The blocks in the arrays -/

/-- What the result ends holding: each entry of the big array times its plane's scale. -/
abbrev G1 (X : S64x16x256x256.Idx → EReal) (S : S64x16x1x1.Idx → EReal) : S64x16x256x256.Idx → EReal :=
  fun i => X i * S (ix4 (n0 := 64) (n1 := 16) (i 0) (i 1) (0 : Fin 1) (0 : Fin 1))

/-- At each of the 64 points `t`, all three windows sit at block (t, 0, 0, 0): a finite check over the points. -/
theorem idx_facts1 : ∀ t : Fin cfg1.N,
    win1_2.index t (0 : Fin 4) = t.val ∧ win1_2.index t (1 : Fin 4) = 0 ∧ win1_2.index t (2 : Fin 4) = 0 ∧ win1_2.index t (3 : Fin 4) = 0
    ∧ win1_0.index t (0 : Fin 4) = t.val ∧ win1_0.index t (1 : Fin 4) = 0 ∧ win1_0.index t (2 : Fin 4) = 0 ∧ win1_0.index t (3 : Fin 4) = 0
    ∧ win1_1.index t (0 : Fin 4) = t.val ∧ win1_1.index t (1 : Fin 4) = 0 ∧ win1_1.index t (2 : Fin 4) = 0 ∧ win1_1.index t (3 : Fin 4) = 0 :=
  (by decide +kernel : ∀ t : Fin grid1.N, _)

/-- Point `t` writes back the restriction of `G1` (taken of the big array and the scales at region entry) to batch `t`. -/
theorem flushed1_eq (c : Dev nD) (t : Fin cfg1.N) :
    (dat1 (F := Ideal) V c).flushed 2 t = ((cfg1.win 2).blk t).view.read (Elt Ideal) (G1 (V c main_arg0) (V c main_v20)) := by
  show (cfg1.win 2).cut (grid1.coords t) ((dat1 (F := Ideal) V c).after 2 t) = _
  rw [after1_2]
  unfold out1
  obtain ⟨e0, e1, e2, e3, a0, a1, a2, a3, s0, s1, s2, s3⟩ := idx_facts1 t
  funext j
  show k1_pay1 (iblk1 V c 0 t) (iblk1 V c 1 t) j = G1 (V c main_arg0) (V c main_v20) (((cfg1.win 2).blk t).view.emb j)
  refine (pay1_apply (iblk1 V c 0 t) (iblk1 V c 1 t) j).trans ?_
  have h0 : ((cfg1.win 0).blk t).view.emb j = ((cfg1.win 2).blk t).view.emb j := by
    funext a; apply Fin.ext
    match a with
    | ⟨0, _⟩ => show win1_0.index t (0 : Fin 4) * 1 + 1 * (j 0).val = win1_2.index t (0 : Fin 4) * 1 + 1 * (j 0).val; omega
    | ⟨1, _⟩ => show win1_0.index t (1 : Fin 4) * 16 + 1 * (j 1).val = win1_2.index t (1 : Fin 4) * 16 + 1 * (j 1).val; omega
    | ⟨2, _⟩ => show win1_0.index t (2 : Fin 4) * 256 + 1 * (j 2).val = win1_2.index t (2 : Fin 4) * 256 + 1 * (j 2).val; omega
    | ⟨3, _⟩ => show win1_0.index t (3 : Fin 4) * 256 + 1 * (j 3).val = win1_2.index t (3 : Fin 4) * 256 + 1 * (j 3).val; omega
  have h1 : ((cfg1.win 1).blk t).view.emb (ix4 (0 : Fin 1) (j 1) (0 : Fin 1) (0 : Fin 1))
      = ix4 (n0 := 64) (n1 := 16) ((((cfg1.win 2).blk t).view.emb j) 0) ((((cfg1.win 2).blk t).view.emb j) 1) (0 : Fin 1) (0 : Fin 1) := by
    funext a; apply Fin.ext
    match a with
    | ⟨0, _⟩ => show win1_1.index t (0 : Fin 4) * 1 + 1 * 0 = win1_2.index t (0 : Fin 4) * 1 + 1 * (j 0).val; have hj : (j 0).val < 1 := (j 0).isLt; omega
    | ⟨1, _⟩ => show win1_1.index t (1 : Fin 4) * 16 + 1 * (j 1).val = win1_2.index t (1 : Fin 4) * 16 + 1 * (j 1).val; omega
    | ⟨2, _⟩ => show win1_1.index t (2 : Fin 4) * 1 + 1 * 0 = 0; omega
    | ⟨3, _⟩ => show win1_1.index t (3 : Fin 4) * 1 + 1 * 0 = 0; omega
  have key : ∀ (X : S64x16x256x256.Idx → EReal) (S : S64x16x1x1.Idx → EReal),
      X (((cfg1.win 0).blk t).view.emb j) * S (((cfg1.win 1).blk t).view.emb (ix4 (0 : Fin 1) (j 1) (0 : Fin 1) (0 : Fin 1)))
        = G1 X S (((cfg1.win 2).blk t).view.emb j) := by
    intro X S
    rw [h0, h1]
  exact key (V c main_arg0) (V c main_v20)

/-! ## The cover, and the array after the run -/

/-- Membership in batch `t`'s block of the result, axis by axis: block index times block extent, up to one extent more. -/
theorem mem_blk1 (t : Fin cfg1.N) (i : S64x16x256x256.Idx) :
    i ∈ ((cfg1.win 2).blk t).view.set ↔ ∀ a : Fin 4, win1_2.index t a * S1x16x256x256.size a ≤ (i a).val ∧ (i a).val < win1_2.index t a * S1x16x256x256.size a + S1x16x256x256.size a := by
  show i ∈ ((View.whole main_v21).slice (win1_2.rect t)).set ↔ _
  rw [View.set_slice_whole, Rect.mem_set_unit]
  exact Iff.rfl

/-- Every index of the result lies in the block of the point its batch coordinate names, and every point writes back. -/
theorem cover1 (i : S64x16x256x256.Idx) :
    ∃ t : Fin cfg1.N, (cfg1.win 2).flush t = true ∧ i ∈ ((cfg1.win 2).blk t).view.set := by
  have hi0 : (i 0).val < cfg1.N := (i 0).isLt
  have hi1 : (i 1).val < 16 := (i 1).isLt
  have hi2 : (i 2).val < 256 := (i 2).isLt
  have hi3 : (i 3).val < 256 := (i 3).isLt
  obtain ⟨e0, e1, e2, e3, -⟩ := idx_facts1 ⟨(i 0).val, hi0⟩
  have e0' : win1_2.index ⟨(i 0).val, hi0⟩ (0 : Fin 4) = (i 0).val := e0
  refine ⟨⟨(i 0).val, hi0⟩, flush1_2 _, ?_⟩
  rw [mem_blk1]
  intro a
  match a with
  | ⟨0, _⟩ => show win1_2.index ⟨(i 0).val, hi0⟩ (0 : Fin 4) * 1 ≤ (i 0).val ∧ (i 0).val < win1_2.index ⟨(i 0).val, hi0⟩ (0 : Fin 4) * 1 + 1; omega
  | ⟨1, _⟩ => show win1_2.index ⟨(i 0).val, hi0⟩ (1 : Fin 4) * 16 ≤ (i 1).val ∧ (i 1).val < win1_2.index ⟨(i 0).val, hi0⟩ (1 : Fin 4) * 16 + 16; omega
  | ⟨2, _⟩ => show win1_2.index ⟨(i 0).val, hi0⟩ (2 : Fin 4) * 256 ≤ (i 2).val ∧ (i 2).val < win1_2.index ⟨(i 0).val, hi0⟩ (2 : Fin 4) * 256 + 256; omega
  | ⟨3, _⟩ => show win1_2.index ⟨(i 0).val, hi0⟩ (3 : Fin 4) * 256 ≤ (i 3).val ∧ (i 3).val < win1_2.index ⟨(i 0).val, hi0⟩ (3 : Fin 4) * 256 + 256; omega

/-- Region 1's output array after the run: each entry of the big array times its plane's scale. -/
theorem final1 (c : Dev nD) (X : S64x16x256x256.Idx → EReal) (S : S64x16x1x1.Idx → EReal)
    (hX : V c main_arg0 = X) (hS : V c main_v20 = S) :
    ((dat1 (F := Ideal) V c).arrAt 2 cfg1.N : S64x16x256x256.Idx → EReal)
      = fun i => X i * S (ix4 (n0 := 64) (n1 := 16) (i 0) (i 1) (0 : Fin 1) (0 : Fin 1)) := by
  subst hX
  subst hS
  exact (dat1 (F := Ideal) V c).arrAt_eq_of_cover 2 (G1 (V c main_arg0) (V c main_v20)) (fun t _ => flushed1_eq V c t) cover1

end Cert.KernelIdeal.Hand

end
-- ==== Proof.KI.ScaleK.lean ====
/-
  The kernel program's host side between its two regions, as stages: from the plane means `g` (region 0's output) and
  the four small arguments, the first layer with its relu, the second layer's product, the sigmoid with the truncating
  cast to integers and back (the tail both programs share), and the reshape to 64×16×1×1 that region 1 reads its scales
  from. The terms are the operations of the three host stretches, in order.
-/
import proofs.«126365_j48490180772307_1_alg».proof.Proof.Gen.KernelIdeal

noncomputable section

namespace Cert.KernelIdeal.Hand

open Idealize.ShloMosaic Idealize.SL.Sem
open Cert.KernelIdeal

variable {F : FTy → Type} [FloatOps F] [Cert.KernelIdeal.Facts]
open Cert.KernelIdeal.Facts₀

/-- The hidden layer: `relu (g · W1ᵀ + b1)`. -/
def hid1K (g : (⟨S64x16, .f32⟩ : BufTy).Contents (Elt F)) (x1 : (⟨S4x16, .f32⟩ : BufTy).Contents (Elt F)) (x2 : (⟨S4, .f32⟩ : BufTy).Contents (Elt F)) : (⟨S64x4, .f32⟩ : BufTy).Contents (Elt F) :=
  maximumf (addf (Host.dotGeneral dot_S64x16_S16x4_S64x4_1_0_0_1_n_n none g (transpose S16x4 [1, 0] x1 transposes_S4x16_S16x4_1_0))
      (broadcastInDim S64x4 ![0, 1] bcast_S1x4_S64x4_0_1 (broadcastInDim S1x4 ![1] bcast_S4_S1x4_1 x2)))
    (broadcastInDim S64x4 ![] bcast_S_S64x4 (constant S_ .f32 0x00000000#32))

/-- The second layer's product: `h · W2ᵀ`. -/
def pre2K (h : (⟨S64x4, .f32⟩ : BufTy).Contents (Elt F)) (x3 : (⟨S16x4, .f32⟩ : BufTy).Contents (Elt F)) : (⟨S64x16, .f32⟩ : BufTy).Contents (Elt F) :=
  Host.dotGeneral dot_S64x4_S4x16_S64x16_1_0_0_1_n_n none h (transpose S4x16 [1, 0] x3 transposes_S16x4_S4x16_1_0)

/-- The tail: `1 / (1 + exp (-(v + b2)))`, converted to a 32-bit integer and back. -/
def tailK (v : (⟨S64x16, .f32⟩ : BufTy).Contents (Elt F)) (x4 : (⟨S16, .f32⟩ : BufTy).Contents (Elt F)) : (⟨S64x16, .f32⟩ : BufTy).Contents (Elt F) :=
  sitofp .f32 (fptosi 32 (Host.divf (broadcastInDim S64x16 ![] bcast_S_S64x16 (constant S_ .f32 0x3F800000#32))
    (addf (broadcastInDim S64x16 ![] bcast_S_S64x16 (constant S_ .f32 0x3F800000#32))
      (Host.exp (Host.negf (addf v (broadcastInDim S64x16 ![0, 1] bcast_S1x16_S64x16_0_1 (broadcastInDim S1x16 ![1] bcast_S16_S1x16_1 x4))))))))

/-- The scales region 1 reads, 64×16×1×1. -/
def scaleK (g : (⟨S64x16, .f32⟩ : BufTy).Contents (Elt F)) (x1 : (⟨S4x16, .f32⟩ : BufTy).Contents (Elt F)) (x2 : (⟨S4, .f32⟩ : BufTy).Contents (Elt F)) (x3 : (⟨S16x4, .f32⟩ : BufTy).Contents (Elt F)) (x4 : (⟨S16, .f32⟩ : BufTy).Contents (Elt F)) : (⟨S64x16x1x1, .f32⟩ : BufTy).Contents (Elt F) :=
  fun i => shapeCast S64x16x1x1 (tailK (pre2K (hid1K g x1 x2) x3) x4) shapeCasts_S64x16_S64x16x1x1 i

end Cert.KernelIdeal.Hand

end
-- ==== Proof.KI.HostK.lean ====
/-
  What region 1 is entered from: the big array as launched, and the scales computed by the three host stretches from
  region 0's output (the plane means) and the four small arguments.
-/
import proofs.«126365_j48490180772307_1_alg».proof.Proof.KI.Segs
import proofs.«126365_j48490180772307_1_alg».proof.Proof.KI.ScaleK
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The three host stretches, one at a time, from any contents -/

section Stretches

variable (V : Valuation τ sig (Elt F))

/-- The first stretch leaves in `main_v5` the first layer before its relu: `g · W1ᵀ + b1`, of the contents of
    `main_v0`, `main_arg1` and `main_arg2` it started from. -/
theorem after1_v5 :
    StableHlo.after (hostOps1 (F := F)) V (Proc.devRef .tc main_v5)
      = addf (Host.dotGeneral dot_S64x16_S16x4_S64x4_1_0_0_1_n_n none (V (Proc.devRef .tc main_v0))
          (transpose S16x4 [1, 0] (V (Proc.devRef .tc main_arg1)) transposes_S4x16_S16x4_1_0))
        (broadcastInDim S64x4 ![0, 1] bcast_S1x4_S64x4_0_1 (broadcastInDim S1x4 ![1] bcast_S4_S1x4_1 (V (Proc.devRef .tc main_arg2)))) := by
  after_results <;> rfl

/-- The second stretch (the relu) leaves in `main_v6` the maximum of `main_v5` and zero. -/
theorem after2_v6 :
    StableHlo.after (hostOps1_1 (F := F)) V (Proc.devRef .tc main_v6)
      = maximumf (V (Proc.devRef .tc main_v5)) (broadcastInDim S64x4 ![] bcast_S_S64x4 (constant S_ .f32 0x00000000#32)) := by
  after_results <;> rfl

/-- The third stretch leaves in `main_v20` the second layer, the sigmoid with its truncating cast, reshaped. -/
theorem after3_v20 :
    StableHlo.after (hostOps1_2 (F := F)) V (Proc.devRef .tc main_v20)
      = fun i => shapeCast S64x16x1x1 (tailK (pre2K (V (Proc.devRef .tc main_v6)) (V (Proc.devRef .tc main_arg3))) (V (Proc.devRef .tc main_arg4)))
          shapeCasts_S64x16_S64x16x1x1 i := by
  after_results <;> rfl

end Stretches

/-! ## What region 0 and the launch leave for the stretches to read -/

/-- After region 0, `main_v0` holds its output array: the plane means. -/
theorem V1_v0 (c : Dev nD) : Gen.V1 m (outsA m) c (Proc.devRef .tc main_v0) = (dat0 (Ve0 m) c).arrAt 1 cfg0.N :=
  (Function.update_self _ _ _).trans (outs_one m c)

/-- No host stretch writes the big array and region 0 only reads it. -/
theorem Ve1_arg0 (c : Dev nD) : Ve1 m c main_arg0 = m ((c : Thread nD τ).loc main_arg0) :=
  (V4_of m (outsA m) c main_arg0 (by decide)).trans <| (V3_of m (outsA m) c main_arg0 (by decide)).trans <|
    (V2_of m (outsA m) c main_arg0 (by decide)).trans <| (V1_of m (outsA m) c main_arg0 (by decide)).trans rfl

/-- The scales region 1 reads: the host stretches' composed term of region 0's output and the small arguments. -/
theorem Ve1_v20 (c : Dev nD) :
    Ve1 m c main_v20 = scaleK ((dat0 (Ve0 m) c).arrAt 1 cfg0.N) (m ((c : Thread nD τ).loc main_arg1)) (m ((c : Thread nD τ).loc main_arg2))
      (m ((c : Thread nD τ).loc main_arg3)) (m ((c : Thread nD τ).loc main_arg4)) := by
  -- the small arguments are as launched wherever a stretch reads them
  have h1 : Gen.V1 m (outsA m) c (Proc.devRef .tc main_arg1) = m ((c : Thread nD τ).loc main_arg1) :=
    (V1_of m (outsA m) c main_arg1 (by decide)).trans rfl
  have h2 : Gen.V1 m (outsA m) c (Proc.devRef .tc main_arg2) = m ((c : Thread nD τ).loc main_arg2) :=
    (V1_of m (outsA m) c main_arg2 (by decide)).trans rfl
  have h3 : Gen.V3 m (outsA m) c (Proc.devRef .tc main_arg3) = m ((c : Thread nD τ).loc main_arg3) :=
    (V3_of m (outsA m) c main_arg3 (by decide)).trans <| (V2_of m (outsA m) c main_arg3 (by decide)).trans <|
      (V1_of m (outsA m) c main_arg3 (by decide)).trans rfl
  have h4 : Gen.V3 m (outsA m) c (Proc.devRef .tc main_arg4) = m ((c : Thread nD τ).loc main_arg4) :=
    (V3_of m (outsA m) c main_arg4 (by decide)).trans <| (V2_of m (outsA m) c main_arg4 (by decide)).trans <|
      (V1_of m (outsA m) c main_arg4 (by decide)).trans rfl
  -- the hidden layer, stretch by stretch
  have h5 : Gen.V2 m (outsA m) c (Proc.devRef .tc main_v5)
      = addf (Host.dotGeneral dot_S64x16_S16x4_S64x4_1_0_0_1_n_n none ((dat0 (Ve0 m) c).arrAt 1 cfg0.N)
          (transpose S16x4 [1, 0] (m ((c : Thread nD τ).loc main_arg1)) transposes_S4x16_S16x4_1_0))
        (broadcastInDim S64x4 ![0, 1] bcast_S1x4_S64x4_0_1 (broadcastInDim S1x4 ![1] bcast_S4_S1x4_1 (m ((c : Thread nD τ).loc main_arg2)))) := by
    rw [← V1_v0 m c, ← h1, ← h2]; exact after1_v5 (Gen.V1 m (outsA m) c)
  have h6 : Gen.V3 m (outsA m) c (Proc.devRef .tc main_v6)
      = hid1K ((dat0 (Ve0 m) c).arrAt 1 cfg0.N) (m ((c : Thread nD τ).loc main_arg1)) (m ((c : Thread nD τ).loc main_arg2)) := by
    unfold hid1K; rw [← h5]; exact after2_v6 (Gen.V2 m (outsA m) c)
  -- the second layer and the tail
  show Gen.V4 m (outsA m) c (Proc.devRef .tc main_v20) = _
  unfold scaleK; rw [← h6, ← h3, ← h4]; exact after3_v20 (Gen.V3 m (outsA m) c)

end Cert.KernelIdeal.Hand

end
-- ==== Proof.KI.RefGap.lean ====
/-
  The reference's plane means are the kernel's plane sums: the reference adds each 256×256 plane in one sum from zero
  and divides by 2¹⁶; the kernel adds the left and right column halves and multiplies by 2⁻¹⁶.
-/
import proofs.«126365_j48490180772307_1_alg».proof.Proof.KI.Spec
import proofs.«126365_j48490180772307_1_alg».proof.Proof.Gen.ReferenceIdeal.Read

noncomputable section

open scoped BigOperators

namespace Cert.ReferenceIdeal.RefValue

open Idealize.ShloMosaic Idealize.ShloMosaic.ValueIdx
open Cert.ReferenceIdeal Cert.ReferenceIdeal.Read

/-! ## The two constants -/

/-- The word for 65536.0 denotes the real 2¹⁶. -/
theorem ofBits_65536 : Ideal.ofBits .f32 0x47800000#32 = ((65536 : ℝ) : EReal) := by
  simp [Ideal.ofBits, Ideal.ieee, -EReal.coe_mul]; norm_num

/-- The word for 2⁻¹⁶ denotes the real 1 / 2¹⁶. -/
theorem ofBits_inv65536 : Ideal.ofBits .f32 0x37800000#32 = ((1 / 65536 : ℝ) : EReal) := by
  simp [Ideal.ofBits, Ideal.ieee, -EReal.coe_mul]; norm_num

/-! ## The sum over the two plane axes -/

/-- Dropping axes 2 and 3 of a 64×16×256×256 index keeps coordinate 0. -/
theorem drop_val0 (h : S64x16x256x256.ReducesTo [2, 3] S64x16) (i : S64x16x256x256.Idx) :
    (h.drop i 0).val = (i 0).val := rfl

/-- Dropping axes 2 and 3 of a 64×16×256×256 index keeps coordinate 1. -/
theorem drop_val1 (h : S64x16x256x256.ReducesTo [2, 3] S64x16) (i : S64x16x256x256.Idx) :
    (h.drop i 1).val = (i 1).val := rfl

/-- The index of plane `j` at row `r`, column `l` drops to `j`. -/
theorem drop_ix4 (h : S64x16x256x256.ReducesTo [2, 3] S64x16) (j : S64x16.Idx) (r l : Fin 256) :
    h.drop (ix4 (j 0) (j 1) r l) = j := by
  funext b
  match b with
  | ⟨0, _⟩ => exact Fin.ext rfl
  | ⟨1, _⟩ => exact Fin.ext rfl

/-- An index is its plane's index at its own row and column. -/
theorem ix4_drop (h : S64x16x256x256.ReducesTo [2, 3] S64x16) (i : S64x16x256x256.Idx) :
    ix4 (h.drop i 0) (h.drop i 1) (i 2) (i 3) = i := by
  funext a
  match a with
  | ⟨0, _⟩ => exact Fin.ext rfl
  | ⟨1, _⟩ => exact Fin.ext rfl
  | ⟨2, _⟩ => rfl
  | ⟨3, _⟩ => rfl

/-- The indices that drop to `j`, summed, are plane `j`'s rows and columns, summed. -/
theorem sum_filter_drop (h : S64x16x256x256.ReducesTo [2, 3] S64x16) (x : S64x16x256x256.Idx → EReal) (j : S64x16.Idx) :
    ∑ i ∈ Finset.univ.filter (fun i => h.drop i = j), x i = Cert.Spec.planeAll x j := by
  unfold Cert.Spec.planeAll
  refine (Finset.sum_nbij' (s := Finset.univ.filter (fun i => h.drop i = j))
    (t := (Finset.univ : Finset (Fin 256)) ×ˢ (Finset.univ : Finset (Fin 256)))
    (g := fun p => x (ix4 (j 0) (j 1) p.1 p.2))
    (fun i => (i 2, i 3)) (fun p => ix4 (j 0) (j 1) p.1 p.2) ?_ ?_ ?_ ?_ ?_).trans
    (Finset.sum_product' _ _ (fun r l => x (ix4 (j 0) (j 1) r l)))
  · intro i _; exact Finset.mem_product.2 ⟨Finset.mem_univ _, Finset.mem_univ _⟩
  · intro p _; exact Finset.mem_filter.2 ⟨Finset.mem_univ _, drop_ix4 h j p.1 p.2⟩
  · intro i hi
    have hj := (Finset.mem_filter.1 hi).2
    subst hj
    exact ix4_drop h i
  · intro p _; rfl
  · intro i hi
    have hj := (Finset.mem_filter.1 hi).2
    subst hj
    exact congrArg x (ix4_drop h i).symm

variable [Cert.ReferenceIdeal.Facts]

/-- The reference's plane means, index by index, are the plane sums. -/
theorem gapR_eq (x0 : (⟨S64x16x256x256, .f32⟩ : BufTy).Contents (Elt Ideal)) :
    val_main_v2 (F := Ideal) x0 = Cert.Spec.planeSum x0 := by
  funext j
  -- the quotient by the word for 2¹⁶ is the product with 1 / 2¹⁶, at every extended real
  rw [val_main_v2_apply, val_main_v1_apply, val_main_cst_0_apply, Ideal.hostDivf_def, Ideal.ofBits_def, ofBits_65536,
    Ideal.div_coe (by norm_num : (65536 : ℝ) ≠ 0)]
  unfold Cert.Spec.planeSum
  rw [ofBits_inv65536, ← Cert.Spec.planeAll_eq_halves]
  congr 1
  -- the sum from the initial value 0 over the indices that drop to `j` is the plane's double sum
  show Ideal.hostReduceAdd _ x0 (val_main_cst (F := Ideal) _) j = _
  unfold Ideal.hostReduceAdd
  rw [val_main_cst_apply, Ideal.ofBits_def, Ideal.ofBits_zero_f32, zero_add]
  exact sum_filter_drop _ x0 j

end Cert.ReferenceIdeal.RefValue

end
-- ==== Proof.KI.Bridge.lean ====
/-
  The two programs compute one function. The kernel program's result is, entry by entry, the big array times the scale
  of its plane (region 1 over the scales the host stretches computed from region 0's plane sums); the reference's is the
  big array times the scale of its plane (two broadcasts and a product). The scales agree: the plane means agree (the
  plane sums against the one-sum mean); a product with a transposed matrix contracting its rows is the product
  contracting the untransposed matrix's columns — both are the same sum over k; and from the second product on both
  programs apply the same operations, which are never opened.
-/
import proofs.«126365_j48490180772307_1_alg».proof.Proof.KI.Value0
import proofs.«126365_j48490180772307_1_alg».proof.Proof.KI.Value1
import proofs.«126365_j48490180772307_1_alg».proof.Proof.KI.HostK
import proofs.«126365_j48490180772307_1_alg».proof.Proof.KI.RefGap
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Proof.Bridge

open Idealize.ShloMosaic Idealize.ShloMosaic.TcCoe Idealize.ShloMosaic.ValueIdx Idealize.SL.Sem

/-! ## The kernel program's two products: which operand coordinates an output index and a contraction index read -/

theorem lhsK1_0 (i : Cert.KernelIdeal.S64x4.Idx) (q : Cert.KernelIdeal.dot_S64x16_S16x4_S64x4_1_0_0_1_n_n.contr.Idx) :
    (Cert.KernelIdeal.dot_S64x16_S16x4_S64x4_1_0_0_1_n_n.lhsIdx i q 0).val = (i 0).val := by
  unfold DotDims.lhsIdx
  rw [dif_neg (show ¬(0 : Fin Cert.KernelIdeal.S64x16.rank) ∈ Cert.KernelIdeal.dot_S64x16_S16x4_S64x4_1_0_0_1_n_n.lhsBatch by decide), dif_pos (show (0 : Fin Cert.KernelIdeal.S64x16.rank) ∈ Cert.KernelIdeal.dot_S64x16_S16x4_S64x4_1_0_0_1_n_n.lhsNonContracting by decide)]
  rfl
theorem lhsK1_1 (i : Cert.KernelIdeal.S64x4.Idx) (q : Cert.KernelIdeal.dot_S64x16_S16x4_S64x4_1_0_0_1_n_n.contr.Idx) :
    (Cert.KernelIdeal.dot_S64x16_S16x4_S64x4_1_0_0_1_n_n.lhsIdx i q 1).val = (q ⟨0, by decide⟩).val :=
  Cert.KernelIdeal.dot_S64x16_S16x4_S64x4_1_0_0_1_n_n.lhsIdx_val_of_single rfl i q
theorem rhsK1_0 (i : Cert.KernelIdeal.S64x4.Idx) (q : Cert.KernelIdeal.dot_S64x16_S16x4_S64x4_1_0_0_1_n_n.contr.Idx) :
    (Cert.KernelIdeal.dot_S64x16_S16x4_S64x4_1_0_0_1_n_n.rhsIdx i q 0).val = (q ⟨0, by decide⟩).val :=
  Cert.KernelIdeal.dot_S64x16_S16x4_S64x4_1_0_0_1_n_n.rhsIdx_val_of_single rfl i q
theorem rhsK1_1 (i : Cert.KernelIdeal.S64x4.Idx) (q : Cert.KernelIdeal.dot_S64x16_S16x4_S64x4_1_0_0_1_n_n.contr.Idx) :
    (Cert.KernelIdeal.dot_S64x16_S16x4_S64x4_1_0_0_1_n_n.rhsIdx i q 1).val = (i 1).val := by
  unfold DotDims.rhsIdx
  rw [dif_neg (show ¬(1 : Fin Cert.KernelIdeal.S16x4.rank) ∈ Cert.KernelIdeal.dot_S64x16_S16x4_S64x4_1_0_0_1_n_n.rhsBatch by decide), dif_pos (show (1 : Fin Cert.KernelIdeal.S16x4.rank) ∈ Cert.KernelIdeal.dot_S64x16_S16x4_S64x4_1_0_0_1_n_n.rhsNonContracting by decide)]
  rfl

theorem lhsK2_0 (i : Cert.KernelIdeal.S64x16.Idx) (q : Cert.KernelIdeal.dot_S64x4_S4x16_S64x16_1_0_0_1_n_n.contr.Idx) :
    (Cert.KernelIdeal.dot_S64x4_S4x16_S64x16_1_0_0_1_n_n.lhsIdx i q 0).val = (i 0).val := by
  unfold DotDims.lhsIdx
  rw [dif_neg (show ¬(0 : Fin Cert.KernelIdeal.S64x4.rank) ∈ Cert.KernelIdeal.dot_S64x4_S4x16_S64x16_1_0_0_1_n_n.lhsBatch by decide), dif_pos (show (0 : Fin Cert.KernelIdeal.S64x4.rank) ∈ Cert.KernelIdeal.dot_S64x4_S4x16_S64x16_1_0_0_1_n_n.lhsNonContracting by decide)]
  rfl
theorem lhsK2_1 (i : Cert.KernelIdeal.S64x16.Idx) (q : Cert.KernelIdeal.dot_S64x4_S4x16_S64x16_1_0_0_1_n_n.contr.Idx) :
    (Cert.KernelIdeal.dot_S64x4_S4x16_S64x16_1_0_0_1_n_n.lhsIdx i q 1).val = (q ⟨0, by decide⟩).val :=
  Cert.KernelIdeal.dot_S64x4_S4x16_S64x16_1_0_0_1_n_n.lhsIdx_val_of_single rfl i q
theorem rhsK2_0 (i : Cert.KernelIdeal.S64x16.Idx) (q : Cert.KernelIdeal.dot_S64x4_S4x16_S64x16_1_0_0_1_n_n.contr.Idx) :
    (Cert.KernelIdeal.dot_S64x4_S4x16_S64x16_1_0_0_1_n_n.rhsIdx i q 0).val = (q ⟨0, by decide⟩).val :=
  Cert.KernelIdeal.dot_S64x4_S4x16_S64x16_1_0_0_1_n_n.rhsIdx_val_of_single rfl i q
theorem rhsK2_1 (i : Cert.KernelIdeal.S64x16.Idx) (q : Cert.KernelIdeal.dot_S64x4_S4x16_S64x16_1_0_0_1_n_n.contr.Idx) :
    (Cert.KernelIdeal.dot_S64x4_S4x16_S64x16_1_0_0_1_n_n.rhsIdx i q 1).val = (i 1).val := by
  unfold DotDims.rhsIdx
  rw [dif_neg (show ¬(1 : Fin Cert.KernelIdeal.S4x16.rank) ∈ Cert.KernelIdeal.dot_S64x4_S4x16_S64x16_1_0_0_1_n_n.rhsBatch by decide), dif_pos (show (1 : Fin Cert.KernelIdeal.S4x16.rank) ∈ Cert.KernelIdeal.dot_S64x4_S4x16_S64x16_1_0_0_1_n_n.rhsNonContracting by decide)]
  rfl

/-- The first layer's product in the kernel program, g · W1ᵀ with W1ᵀ the transposed 4×16 matrix: entry (b, j) is the
    sum over k of g (b, k) · W1 (j, k). -/
theorem dotK1_apply (g : (⟨Cert.KernelIdeal.S64x16, .f32⟩ : BufTy).Contents (Elt Ideal)) (x1 : (⟨Cert.KernelIdeal.S4x16, .f32⟩ : BufTy).Contents (Elt Ideal))
    (ht : Cert.KernelIdeal.S4x16.Transposes [1, 0] Cert.KernelIdeal.S16x4) (i : Cert.KernelIdeal.S64x4.Idx) :
    Host.dotGeneral (F := Ideal) (φ₁ := .f32) (φ₂ := .f32) Cert.KernelIdeal.dot_S64x16_S16x4_S64x4_1_0_0_1_n_n none g (transpose Cert.KernelIdeal.S16x4 [1, 0] x1 ht) i
      = ∑ k : Fin 16, g (ix2 (i 0) k) * x1 (ix2 (i 1) k) := by
  generalize hT : transpose Cert.KernelIdeal.S16x4 [1, 0] x1 ht = T
  simp only [Host.dotGeneral]
  rw [Ideal.dotGeneral_apply, ← Equiv.sum_comp (ValueIdx.contrEquiv1 Cert.KernelIdeal.dot_S64x16_S16x4_S64x4_1_0_0_1_n_n 16 rfl rfl).symm]
  refine Finset.sum_congr rfl fun k _ => ?_
  have hk := ValueIdx.contrEquiv1_symm_val Cert.KernelIdeal.dot_S64x16_S16x4_S64x4_1_0_0_1_n_n 16 rfl rfl k
  have el : Cert.KernelIdeal.dot_S64x16_S16x4_S64x4_1_0_0_1_n_n.lhsIdx i ((ValueIdx.contrEquiv1 Cert.KernelIdeal.dot_S64x16_S16x4_S64x4_1_0_0_1_n_n 16 rfl rfl).symm k) = ix2 (i 0) k := funext fun a => Fin.ext (by
    match a with
    | ⟨0, _⟩ => exact lhsK1_0 _ _
    | ⟨1, _⟩ => exact (lhsK1_1 _ _).trans hk)
  rw [el, ← hT]
  refine congrArg (fun z => g (ix2 (i 0) k) * z) ?_
  refine transpose_apply [1, 0] x1 ht _ (ix2 (i 1) k) fun b => ?_
  match b with
  | ⟨0, _⟩ => exact ((rhsK1_0 _ _).trans hk).symm
  | ⟨1, _⟩ => exact (rhsK1_1 _ _).symm

/-- The second layer's product in the kernel program, h · W2ᵀ with W2ᵀ the transposed 16×4 matrix: entry (b, j) is the
    sum over k of h (b, k) · W2 (j, k). -/
theorem pre2K_apply (h : (⟨Cert.KernelIdeal.S64x4, .f32⟩ : BufTy).Contents (Elt Ideal)) (x3 : (⟨Cert.KernelIdeal.S16x4, .f32⟩ : BufTy).Contents (Elt Ideal))
    (i : Cert.KernelIdeal.S64x16.Idx) :
    Cert.KernelIdeal.Hand.pre2K (F := Ideal) h x3 i = ∑ k : Fin 4, h (ix2 (i 0) k) * x3 (ix2 (i 1) k) := by
  unfold Cert.KernelIdeal.Hand.pre2K
  generalize hT : transpose Cert.KernelIdeal.S4x16 [1, 0] x3 _ = T
  simp only [Host.dotGeneral]
  rw [Ideal.dotGeneral_apply, ← Equiv.sum_comp (ValueIdx.contrEquiv1 Cert.KernelIdeal.dot_S64x4_S4x16_S64x16_1_0_0_1_n_n 4 rfl rfl).symm]
  refine Finset.sum_congr rfl fun k _ => ?_
  have hk := ValueIdx.contrEquiv1_symm_val Cert.KernelIdeal.dot_S64x4_S4x16_S64x16_1_0_0_1_n_n 4 rfl rfl k
  have el : Cert.KernelIdeal.dot_S64x4_S4x16_S64x16_1_0_0_1_n_n.lhsIdx i ((ValueIdx.contrEquiv1 Cert.KernelIdeal.dot_S64x4_S4x16_S64x16_1_0_0_1_n_n 4 rfl rfl).symm k) = ix2 (i 0) k := funext fun a => Fin.ext (by
    match a with
    | ⟨0, _⟩ => exact lhsK2_0 _ _
    | ⟨1, _⟩ => exact (lhsK2_1 _ _).trans hk)
  rw [el, ← hT]
  refine congrArg (fun z => h (ix2 (i 0) k) * z) ?_
  refine transpose_apply [1, 0] x3 _ _ (ix2 (i 1) k) fun b => ?_
  match b with
  | ⟨0, _⟩ => exact ((rhsK2_0 _ _).trans hk).symm
  | ⟨1, _⟩ => exact (rhsK2_1 _ _).symm

/-! ## The reference's two products are the kernel program's -/

/-- The reference's first product contracts the columns of W1; the kernel program's contracts the rows of W1ᵀ. -/
theorem prod1_eq (x0 : (⟨Cert.ReferenceIdeal.S64x16x256x256, .f32⟩ : BufTy).Contents (Elt Ideal)) (x1 : (⟨Cert.ReferenceIdeal.S4x16, .f32⟩ : BufTy).Contents (Elt Ideal))
    (ht : Cert.KernelIdeal.S4x16.Transposes [1, 0] Cert.KernelIdeal.S16x4) :
    Cert.ReferenceIdeal.Read.val_main_v3 (F := Ideal) x0 x1
      = Host.dotGeneral (F := Ideal) (φ₁ := .f32) (φ₂ := .f32) Cert.KernelIdeal.dot_S64x16_S16x4_S64x4_1_0_0_1_n_n none (Cert.ReferenceIdeal.Read.val_main_v2 (F := Ideal) x0)
          (transpose Cert.KernelIdeal.S16x4 [1, 0] x1 ht) := by
  funext i
  rw [Cert.ReferenceIdeal.Read.val_main_v3_apply]
  refine Eq.trans ?_ (dotK1_apply _ x1 ht i).symm
  refine Finset.sum_congr rfl fun k _ => ?_
  have el : Cert.ReferenceIdeal.Read.lidx_main_v3 i k = ix2 (i 0) k := funext fun a => by
    match a with
    | ⟨0, _⟩ => rfl
    | ⟨1, _⟩ => rfl
  have er : Cert.ReferenceIdeal.Read.ridx_main_v3 i k = ix2 (i 1) k := funext fun a => by
    match a with
    | ⟨0, _⟩ => rfl
    | ⟨1, _⟩ => rfl
  rw [el, er]
  rfl

/-- The hidden layer: the same bias, the same maximum against zero, over equal products. -/
theorem hid_eq (x0 : (⟨Cert.ReferenceIdeal.S64x16x256x256, .f32⟩ : BufTy).Contents (Elt Ideal)) (x1 : (⟨Cert.ReferenceIdeal.S4x16, .f32⟩ : BufTy).Contents (Elt Ideal))
    (x2 : (⟨Cert.ReferenceIdeal.S4, .f32⟩ : BufTy).Contents (Elt Ideal)) :
    Cert.ReferenceIdeal.Read.val_main_v7 (F := Ideal) x0 x1 x2
      = Cert.KernelIdeal.Hand.hid1K (F := Ideal) (Cert.ReferenceIdeal.Read.val_main_v2 (F := Ideal) x0) x1 x2 := by
  unfold Cert.ReferenceIdeal.Read.val_main_v7 Cert.ReferenceIdeal.Read.val_main_v6 Cert.KernelIdeal.Hand.hid1K
  rw [prod1_eq x0 x1 Cert.KernelIdeal.Facts₀.transposes_S4x16_S16x4_1_0]
  rfl

/-- The reference's second product contracts the columns of W2; the kernel program's contracts the rows of W2ᵀ. -/
theorem prod2_eq (x0 : (⟨Cert.ReferenceIdeal.S64x16x256x256, .f32⟩ : BufTy).Contents (Elt Ideal)) (x1 : (⟨Cert.ReferenceIdeal.S4x16, .f32⟩ : BufTy).Contents (Elt Ideal))
    (x2 : (⟨Cert.ReferenceIdeal.S4, .f32⟩ : BufTy).Contents (Elt Ideal)) (x3 : (⟨Cert.ReferenceIdeal.S16x4, .f32⟩ : BufTy).Contents (Elt Ideal)) :
    Cert.ReferenceIdeal.Read.val_main_v8 (F := Ideal) x0 x1 x2 x3
      = Cert.KernelIdeal.Hand.pre2K (F := Ideal) (Cert.ReferenceIdeal.Read.val_main_v7 (F := Ideal) x0 x1 x2) x3 := by
  funext i
  rw [Cert.ReferenceIdeal.Read.val_main_v8_apply]
  refine Eq.trans ?_ (pre2K_apply _ x3 i).symm
  refine Finset.sum_congr rfl fun k _ => ?_
  have el : Cert.ReferenceIdeal.Read.lidx_main_v8 i k = ix2 (i 0) k := funext fun a => by
    match a with
    | ⟨0, _⟩ => rfl
    | ⟨1, _⟩ => rfl
  have er : Cert.ReferenceIdeal.Read.ridx_main_v8 i k = ix2 (i 1) k := funext fun a => by
    match a with
    | ⟨0, _⟩ => rfl
    | ⟨1, _⟩ => rfl
  rw [el, er]
  rfl

/-- From the second product on the two programs apply the same operations: the bias, the negation, the exponential,
    one plus it, the reciprocal, the conversion to an integer and back. -/
theorem tail_eq (x0 : (⟨Cert.ReferenceIdeal.S64x16x256x256, .f32⟩ : BufTy).Contents (Elt Ideal)) (x1 : (⟨Cert.ReferenceIdeal.S4x16, .f32⟩ : BufTy).Contents (Elt Ideal))
    (x2 : (⟨Cert.ReferenceIdeal.S4, .f32⟩ : BufTy).Contents (Elt Ideal)) (x3 : (⟨Cert.ReferenceIdeal.S16x4, .f32⟩ : BufTy).Contents (Elt Ideal))
    (x4 : (⟨Cert.ReferenceIdeal.S16, .f32⟩ : BufTy).Contents (Elt Ideal)) :
    Cert.ReferenceIdeal.Read.val_main_v19 (F := Ideal) x0 x1 x2 x3 x4
      = Cert.KernelIdeal.Hand.tailK (F := Ideal) (Cert.ReferenceIdeal.Read.val_main_v8 (F := Ideal) x0 x1 x2 x3) x4 := rfl

/-- The reference's scales are the kernel program's host stages over the reference's plane means. -/
theorem scale_eq (x0 : (⟨Cert.ReferenceIdeal.S64x16x256x256, .f32⟩ : BufTy).Contents (Elt Ideal)) (x1 : (⟨Cert.ReferenceIdeal.S4x16, .f32⟩ : BufTy).Contents (Elt Ideal))
    (x2 : (⟨Cert.ReferenceIdeal.S4, .f32⟩ : BufTy).Contents (Elt Ideal)) (x3 : (⟨Cert.ReferenceIdeal.S16x4, .f32⟩ : BufTy).Contents (Elt Ideal))
    (x4 : (⟨Cert.ReferenceIdeal.S16, .f32⟩ : BufTy).Contents (Elt Ideal)) :
    Cert.ReferenceIdeal.Read.val_main_v19 (F := Ideal) x0 x1 x2 x3 x4
      = Cert.KernelIdeal.Hand.tailK (F := Ideal) (Cert.KernelIdeal.Hand.pre2K (F := Ideal)
          (Cert.KernelIdeal.Hand.hid1K (F := Ideal) (Cert.Spec.planeSum x0) x1 x2) x3) x4 := by
  rw [tail_eq, prod2_eq, hid_eq, Cert.ReferenceIdeal.RefValue.gapR_eq]

/-- The 64×16×1×1 array of scales at (b, h, 0, 0) is the 64×16 array at (b, h): the two have the same row-major
    position. -/
theorem scaleK_apply (g : (⟨Cert.KernelIdeal.S64x16, .f32⟩ : BufTy).Contents (Elt Ideal)) (x1 : (⟨Cert.KernelIdeal.S4x16, .f32⟩ : BufTy).Contents (Elt Ideal))
    (x2 : (⟨Cert.KernelIdeal.S4, .f32⟩ : BufTy).Contents (Elt Ideal)) (x3 : (⟨Cert.KernelIdeal.S16x4, .f32⟩ : BufTy).Contents (Elt Ideal))
    (x4 : (⟨Cert.KernelIdeal.S16, .f32⟩ : BufTy).Contents (Elt Ideal)) (b : Fin 64) (h : Fin 16) :
    Cert.KernelIdeal.Hand.scaleK (F := Ideal) g x1 x2 x3 x4 (ix4 (n0 := 64) (n1 := 16) b h (0 : Fin 1) (0 : Fin 1))
      = Cert.KernelIdeal.Hand.tailK (F := Ideal) (Cert.KernelIdeal.Hand.pre2K (F := Ideal) (Cert.KernelIdeal.Hand.hid1K (F := Ideal) g x1 x2) x3) x4 (ix2 b h) := by
  unfold Cert.KernelIdeal.Hand.scaleK
  refine shapeCast_apply _ _ _ (ix2 b h) ?_
  rw [Shape.rowMajor_val_two, Shape.rowMajor_val_four]
  show b.val * 16 + h.val = ((b.val * 16 + h.val) * 1 + 0) * 1 + 0
  omega

/-- The two results, entry by entry: the big array's entry times its plane's scale. -/
theorem core (x0 : (⟨Cert.ReferenceIdeal.S64x16x256x256, .f32⟩ : BufTy).Contents (Elt Ideal)) (x1 : (⟨Cert.ReferenceIdeal.S4x16, .f32⟩ : BufTy).Contents (Elt Ideal))
    (x2 : (⟨Cert.ReferenceIdeal.S4, .f32⟩ : BufTy).Contents (Elt Ideal)) (x3 : (⟨Cert.ReferenceIdeal.S16x4, .f32⟩ : BufTy).Contents (Elt Ideal))
    (x4 : (⟨Cert.ReferenceIdeal.S16, .f32⟩ : BufTy).Contents (Elt Ideal)) :
    (fun i : Cert.KernelIdeal.S64x16x256x256.Idx => x0 i * Cert.KernelIdeal.Hand.scaleK (F := Ideal) (Cert.Spec.planeSum x0) x1 x2 x3 x4
        (ix4 (n0 := 64) (n1 := 16) (i 0) (i 1) (0 : Fin 1) (0 : Fin 1)))
      = Cert.ReferenceIdeal.Read.val_main_v22 (F := Ideal) x0 x1 x2 x3 x4 := by
  funext i
  rw [Cert.ReferenceIdeal.Read.val_main_v22_apply, Cert.ReferenceIdeal.Read.val_main_v21_apply, Cert.ReferenceIdeal.Read.val_main_v20_apply,
    scale_eq]
  have e : Cert.ReferenceIdeal.Read.idx_main_v20 (Cert.ReferenceIdeal.Read.idx_main_v21 i) = ix2 (i 0) (i 1) := funext fun a => by
    match a with
    | ⟨0, _⟩ => rfl
    | ⟨1, _⟩ => rfl
  rw [e]
  exact congrArg (fun z => x0 i * z) (scaleK_apply (Cert.Spec.planeSum x0) x1 x2 x3 x4 (i 0) (i 1))

/-- The kernel program's result array, as the run names it, is the reference's composed term of the same arguments. -/
theorem kernel_result (m : (ℓ : Loc Cert.KernelIdeal.nD Cert.KernelIdeal.τ Cert.KernelIdeal.sig) → Buf (Elt Ideal) ℓ) (c : Dev Cert.KernelIdeal.nD) :
    (Cert.KernelIdeal.Hand.dat1 (F := Ideal) (Cert.KernelIdeal.Hand.Ve1 m) c).arrAt 2 Cert.KernelIdeal.cfg1.N
      = Cert.ReferenceIdeal.Read.val_main_v22 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  refine (Cert.KernelIdeal.Hand.final1 (Cert.KernelIdeal.Hand.Ve1 m) c _ _ (Cert.KernelIdeal.Hand.Ve1_arg0 m c) (Cert.KernelIdeal.Hand.Ve1_v20 m c)).trans ?_
  rw [Cert.KernelIdeal.Hand.final0 (Cert.KernelIdeal.Hand.Ve0 m) c _ rfl]
  exact core _ _ _ _ _

end Cert.Proof.Bridge

end
-- ==== Proof.lean ====
/-
  The certificate of a squeeze-and-excitation block over a 64×16×256×256 array: the kernel program against its jnp
  reference, over the extended reals.

  Both programs scale every 256×256 plane (b, h) of the array by one number s(b, h). The reference takes the plane's
  mean (one sum over the plane from zero, divided by 2¹⁶), sends the 64×16 means through a two-layer network
  (16 → 4 with a relu, 4 → 16, each a matrix product plus a bias), applies the sigmoid 1 / (1 + exp(−·)), converts the
  result to a 32-bit integer and back, and multiplies the array by the 64×16 numbers broadcast over the planes. The kernel
  program does the same in three pieces: a first Pallas region sums each plane in two column halves (a VMEM accumulator
  carried across the two tiles of a batch group) and multiplies by 2⁻¹⁶; host operations apply the network, written with
  transposed weight matrices; a second Pallas region multiplies batch by batch.

  At the ideal instance the two agree with no use of the precondition: addition of extended reals is commutative and
  associative, so the order and grouping of a plane's sum do not matter; 2⁻¹⁶ and 2¹⁶ are exact, and dividing an extended
  real by a nonzero real is multiplying by its inverse; a product with a transposed matrix is the same sum of products;
  and from the second product on both programs apply the same operations to equal arguments.

  The frames of the two kernel programs (they run to the end, fault nowhere, leave their arguments unchanged) are proved
  once, for any float instance: region 0 keeps an invariant naming the accumulator's contents after every grid point,
  region 1 is a single whole-block load–multiply–store, and @main's items are composed as segments around the buffers'
  contents between them. The reference's frame is its run with the result dropped. The idealization rewrote nothing, so
  the kernel program at the ideal instance is its own text and `preserves` has nothing to state.
-/
import proofs.«126365_j48490180772307_1_alg».proof.Defs
import proofs.«126365_j48490180772307_1_alg».proof.Proof.Gen.Kernel
import proofs.«126365_j48490180772307_1_alg».proof.Proof.Gen.KernelIdeal
import proofs.«126365_j48490180772307_1_alg».proof.Proof.Gen.ReferenceIdeal
import proofs.«126365_j48490180772307_1_alg».proof.Proof.Gen.Pre_finite_inputs
import proofs.«126365_j48490180772307_1_alg».proof.Proof.Gen.ReferenceIdeal.Run
import proofs.«126365_j48490180772307_1_alg».proof.Proof.Gen.ReferenceIdeal.Read
import proofs.«126365_j48490180772307_1_alg».proof.Proof.K.Segs
import proofs.«126365_j48490180772307_1_alg».proof.Proof.KI.Segs
import proofs.«126365_j48490180772307_1_alg».proof.Proof.KI.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame (F := Bits) m ρ

/-- So does the kernel program read at the ideal instance. -/
theorem frame_ki : Cert.frame_KernelIdeal := fun m ρ _ => Cert.KernelIdeal.Hand.frame (F := Ideal) m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the array times its planes' scales: the kernel
    program's run names its result as what region 1 leaves, which is the reference's composed term of the same arguments;
    the reference's run names that term of its own arguments, which agree. -/
theorem algebraic : Cert.algebraic_KernelIdeal_ReferenceIdeal := by
  intro m ρ m' ρ' _ hagree
  refine ⟨fun c => Cert.ReferenceIdeal.Read.val_main_v22 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun _ h c => ⟨(h c).1.trans (Cert.Proof.Bridge.kernel_result m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v22_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
